-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048x2048 : Shape := ⟨3, ![4, 2048, 2048]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel

variable [Facts]

def fn {F : FTy → Type} [FloatOps F] (main_arg0 : FVec F S4x2048x1024 .f32) (main_arg1 : FVec F S4x2048x1024 .f32) (main_arg2 : FVec F S4x2048x1024 .f32) (main_arg3 : IVec S4x2048x2048 32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  main_v13
-- ==== Kernel.lean ====
abbrev S4x2048x1024 : Shape := ⟨3, ![4, 2048, 1024]⟩
abbrev S4x2048x2048 : Shape := ⟨3, ![4, 2048, 2048]⟩
abbrev S1x2048x128 : Shape := ⟨3, ![1, 2048, 128]⟩
abbrev S1x512x128 : Shape := ⟨3, ![1, 512, 128]⟩
abbrev S1x2048x2048 : Shape := ⟨3, ![1, 2048, 2048]⟩
abbrev S2048x128 : Shape := ⟨2, ![2048, 128]⟩
abbrev S2048x2 : Shape := ⟨2, ![2048, 2]⟩
abbrev S1x2048x512 : Shape := ⟨3, ![1, 2048, 512]⟩
abbrev S2048x512 : Shape := ⟨2, ![2048, 512]⟩
abbrev S512x128 : Shape := ⟨2, ![512, 128]⟩
abbrev S2048x64 : Shape := ⟨2, ![2048, 64]⟩
abbrev S512x64 : Shape := ⟨2, ![512, 64]⟩
abbrev S2048x1 : Shape := ⟨2, ![2048, 1]⟩
abbrev S2048 : Shape := ⟨1, ![2048]⟩

abbrev nBuf : Space → Nat
  | .hbm => 5
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x2048, .i32⟩
  | .hbm, ⟨4, _⟩ => ⟨S4x2048x1024, .f32⟩
  | .local _ .vmem, ⟨0, _⟩ => ⟨S1x2048x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x2048x2048, .i32⟩
  | .local _ .vmem, ⟨6, _⟩ => ⟨S1x2048x128, .f32⟩
  | .local _ .vmem, ⟨7, _⟩ => ⟨S2048x128, .f32⟩
  | .local _ .vmem, ⟨8, _⟩ => ⟨S2048x2, .f32⟩
  | .local _ .vmem, ⟨9, _⟩ => ⟨S2048x2, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨3, ![4, 8, 4], ![false, false, false]⟩

def k0_mult1 (i : grid0.Coords) : BitVec 32 :=
  let arg2 : BitVec 32 := BitVec.ofNat 32 (i 2).val
  let c512_i32 : BitVec 32 := 512#32
  let v4 : BitVec 32 := Scalar.muli arg2 c512_i32
  v4
def k0_off1 (i : grid0.Coords) : Fin 3 → Nat :=
  let c0 : Index := 0#32
  let c0_1 : Index := 0#32
  let arg2 : BitVec 32 := BitVec.ofNat 32 (i 2).val
  let c512_i32 : BitVec 32 := 512#32
  let v4 : BitVec 32 := Scalar.muli arg2 c512_i32
  let v5 : BitVec 32 := v4
  let v6 : Index := Scalar.indexCast v5
  ![0, 0, v6.toNat]
def k0_cond2 (i : grid0.Coords) : BitVec 1 :=
  let arg2 : BitVec 32 := BitVec.ofNat 32 (i 2).val
  let c3_i32 : BitVec 32 := 3#32
  let v1 : BitVec 1 := Scalar.cmpi .eq arg2 c3_i32
  let v98 : BitVec 32 := Scalar.extui v1
  let c0_i32_38 : BitVec 32 := 0#32
  let v99 : BitVec 1 := Scalar.cmpi .ne v98 c0_i32_38
  v99

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 1 → Memref sig .tc .vmem S1x2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x2048x2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 1 → Memref sig .tc .vmem S1x2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]

class Facts₀ : Prop where
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x2_S2048x2_0_0 : ∀ a, (![0, 0] : Fin 2 → Nat) a + S2048x2.size a ≤ S2048x2.size a
  h_S2048x2 : 0 < S2048x2.numel
  shapeCasts_S2048x2_S2048x2 : S2048x2.ShapeCasts S2048x2
  h_S1x2048x512 : 0 < S1x2048x512.numel
  shapeCasts_S1x2048x512_S2048x512 : S1x2048x512.ShapeCasts S2048x512
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  slices_S2048x128_o0_0_S2048x64 : S2048x128.Slices ![0, 0] S2048x64
  bitsLt_bf16_f32 : FTy.bits .bf16 < FTy.bits .f32
  slices_S512x128_o0_0_S512x64 : S512x128.Slices ![0, 0] S512x64
  slices_S2048x2_o0_0_S2048x1 : S2048x2.Slices ![0, 0] S2048x1
  reduces_S2048x512_S2048 : S2048x512.Reduces [1] S2048
  shapeCasts_S2048_S2048x1 : S2048.ShapeCasts S2048x1
  broadcasts_S2048x1_S2048x512 : S2048x1.Broadcasts S2048x512
  broadcasts_S2048x1_S2048x64 : S2048x1.Broadcasts S2048x64
  inb_S2048x2_S2048x1_0_0 : ∀ a, (![0, 0] : Fin 2 → Nat) a + S2048x1.size a ≤ S2048x2.size a
  h_S2048x1 : 0 < S2048x1.numel
  shapeCasts_S2048x1_S2048x1 : S2048x1.ShapeCasts S2048x1
  slices_S2048x128_o0_64_S2048x64 : S2048x128.Slices ![0, 64] S2048x64
  slices_S512x128_o0_64_S512x64 : S512x128.Slices ![0, 64] S512x64
  slices_S2048x2_o0_1_S2048x1 : S2048x2.Slices ![0, 1] S2048x1
  inb_S2048x2_S2048x1_0_1 : ∀ a, (![0, 1] : Fin 2 → Nat) a + S2048x1.size a ≤ S2048x2.size a
  concatenates_S2048x64_S2048x64_S2048x128_d1 : Shape.Concatenates [S2048x64, S2048x64] S2048x128 1
  shapeCasts_S2048x128_S1x2048x128 : S2048x128.ShapeCasts S1x2048x128
  dot_S2048x64_S512x64_S2048x512_1_1_0_0_n_n_wf : DotDims.WF S2048x64 S512x64 S2048x512 [1] [1] [0] [0] [] []
  dot_S2048x512_S512x64_S2048x64_1_0_0_1_n_n_wf : DotDims.WF S2048x512 S512x64 S2048x64 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x2048x512.size a ≤ S1x2048x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S4x2048x1024.size a
  hwx0_0 : ∀ i : grid0.Coords, EltTy.bits .f32 = 32 ∨ (Rect.block (s := S4x2048x1024) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x128.size a ≤ S4x2048x1024.size a
  hwx0_1 : ∀ i : grid0.Coords, EltTy.bits .f32 = 32 ∨ (Rect.block (s := S4x2048x1024) S1x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S4x2048x1024.size a
  hwx0_2 : ∀ i : grid0.Coords, EltTy.bits .f32 = 32 ∨ (Rect.block (s := S4x2048x1024) S1x512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048x2048.size a ≤ S4x2048x2048.size a
  hwx0_3 : ∀ i : grid0.Coords, EltTy.bits .i32 = 32 ∨ (Rect.block (s := S4x2048x2048) S1x2048x2048.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048x128.size a ≤ S4x2048x1024.size a
  hwx0_4 : ∀ i : grid0.Coords, EltTy.bits .f32 = 32 ∨ (Rect.block (s := S4x2048x1024) S1x2048x128.size (cc0_transform_4 i) (hinb0_4 i)).WholeWords (EltTy.packing .f32)

variable [Facts₀]

def dot_S2048x64_S512x64_S2048x512_1_1_0_0_n_n : DotDims S2048x64 S512x64 S2048x512 where
  lhsContracting := [1]
  rhsContracting := [1]
  lhsNonContracting := [0]
  rhsNonContracting := [0]
  lhsBatch := []
  rhsBatch := []
  wf := dot_S2048x64_S512x64_S2048x512_1_1_0_0_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf

abbrev win0_0 : Pipeline.Window sig grid0 :=
  Pipeline.Window.ofSpec (Memref.whole main_arg0) S1x2048x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x2048x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S4x2048x2048 : Shape := ⟨3, ![4, 2048, 2048]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x1x2048x2048 : Shape := ⟨4, ![4, 1, 2048, 2048]⟩
abbrev S4x16x2048 : Shape := ⟨3, ![4, 16, 2048]⟩
abbrev S4x16x2048x1 : Shape := ⟨4, ![4, 16, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x2048, .i32⟩
  | .hbm, ⟨4, _⟩ => ⟨S4x2048x16x64, .f32⟩
  | .hbm, ⟨5, _⟩ => ⟨S4x16x2048x64, .f32⟩
  | .hbm, ⟨6, _⟩ => ⟨S4x2048x16x64, .f32⟩
  | .hbm, ⟨7, _⟩ => ⟨S4x16x2048x64, .f32⟩
  | .hbm, ⟨8, _⟩ => ⟨S4x2048x16x64, .f32⟩
  | .hbm, ⟨9, _⟩ => ⟨S4x16x2048x64, .f32⟩
  | .hbm, ⟨10, _⟩ => ⟨S4x16x2048x2048, .f32⟩
  | .hbm, ⟨11, _⟩ => ⟨S_, .f32⟩
  | .hbm, ⟨12, _⟩ => ⟨S4x16x2048x2048, .f32⟩
  | .hbm, ⟨13, _⟩ => ⟨S4x16x2048x2048, .f32⟩
  | .hbm, ⟨14, _⟩ => ⟨S4x1x2048x2048, .i32⟩
  | .hbm, ⟨15, _⟩ => ⟨S_, .i32⟩
  | .hbm, ⟨16, _⟩ => ⟨S4x1x2048x2048, .i32⟩
  | .hbm, ⟨17, _⟩ => ⟨S4x1x2048x2048, .i1⟩
  | .hbm, ⟨18, _⟩ => ⟨S_, .f32⟩
  | .hbm, ⟨19, _⟩ => ⟨S4x16x2048x2048, .i1⟩
  | .hbm, ⟨20, _⟩ => ⟨S4x16x2048x2048, .f32⟩
  | .hbm, ⟨21, _⟩ => ⟨S4x16x2048x2048, .f32⟩
  | .hbm, ⟨22, _⟩ => ⟨S_, .f32⟩
  | .hbm, ⟨23, _⟩ => ⟨S4x16x2048, .f32⟩
  | .hbm, ⟨24, _⟩ => ⟨S_, .f32⟩
  | .hbm, ⟨25, _⟩ => ⟨S4x16x2048, .f32⟩
  | .hbm, ⟨26, _⟩ => ⟨S4x16x2048, .f32⟩
  | .hbm, ⟨27, _⟩ => ⟨S4x16x2048x1, .f32⟩
  | .hbm, ⟨28, _⟩ => ⟨S4x16x2048x2048, .f32⟩
  | .hbm, ⟨29, _⟩ => ⟨S4x16x2048x2048, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S4x16x2048x1, .f32⟩
  | .hbm, ⟨34, _⟩ => ⟨S4x16x2048x2048, .f32⟩
  | .hbm, ⟨35, _⟩ => ⟨S4x16x2048x2048, .f32⟩
  | .hbm, ⟨36, _⟩ => ⟨S4x16x2048x64, .f32⟩
  | .hbm, ⟨37, _⟩ => ⟨S4x2048x16x64, .f32⟩
  | .hbm, ⟨38, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  bcast_S4x2048x2048_S4x1x2048x2048_0_2_3 : S4x2048x2048.BroadcastsInDim S4x1x2048x2048 (![0, 2, 3] : Fin 3 → Fin S4x1x2048x2048.rank)
  bcast_S_S4x1x2048x2048 : S_.BroadcastsInDim S4x1x2048x2048 (![] : Fin 0 → Fin S4x1x2048x2048.rank)
  bcast_S4x1x2048x2048_S4x16x2048x2048_0_1_2_3 : S4x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Spec.lean ====
/-
  The mathematics both programs compute, stated once over plain index functions.

  One attention row: a query row `q` (64 entries of one head) meets the keys; the score against key `k` is the
  scaled inner product, replaced by the finite fill value where the mask word is zero.  The weights are the
  softmax of a row's 2048 scores and the result is the weighted sum of the value rows.

  The kernel reaches the same number by the ONLINE recurrence over four key blocks of 512: a running maximum `m`,
  a running denominator `l` and a running numerator `a`, each rescaled by `exp (m_old - m_new)` when a block
  raises the maximum, and a final quotient `a / l`.  The reference computes the shifted softmax over all
  2048 keys at once.  `kernelOut` and `refOut` are the two results at an output index `(b, r, e)`.
-/
import Idealize.ShloMosaic.PureOps.Ideal
import Idealize.ShloMosaic.PureOps.Ideal.Laws
import Idealize.ShloMosaic.Lib.ValueIdx

noncomputable section

namespace Cert.Attn

open Idealize.ShloMosaic

/-- The fill value of a masked score, `-1e9` (finite). -/
def negBig : EReal := Ideal.ofBits .f32 0xCE6E6B28#32
/-- The scale `1/8 = 1/sqrt 64`. -/
def scale : EReal := Ideal.ofBits .f32 0x3E000000#32

/-- The pattern of `-inf` is the bottom of the extended reals. -/
theorem ofBits_neg_inf : Ideal.ofBits .f32 0xFF800000#32 = (⊥ : EReal) := by
  simp [Ideal.ofBits, Ideal.ieee]

/-- A masked score as the kernel associates it: the query is scaled before the inner product. -/
def scoreK (q k : Fin 64 → EReal) (w : BitVec 32) : EReal :=
  Scalar.select (IntOp.cmpi .eq w 0#32) negBig (∑ d : Fin 64, (q d * scale) * k d)

/-- A masked score as the reference associates it: the inner product is scaled afterwards. -/
def scoreR (q k : Fin 64 → EReal) (w : BitVec 32) : EReal :=
  Scalar.select (IntOp.cmpi .eq w 0#32) negBig ((∑ d : Fin 64, q d * k d) * scale)

/-! ## One step of the online recurrence, for one row and one block of `n` keys -/

/-- The running maximum after a block with scores `s`. -/
def mNew {n : Nat} (mp : EReal) (s : Fin n → EReal) : EReal :=
  max mp ((Finset.univ : Finset (Fin n)).fold max ⊥ s)

/-- The running denominator after the block: the old one rescaled, plus the block's shifted exponentials. -/
def lNew {n : Nat} (mp lp : EReal) (s : Fin n → EReal) : EReal :=
  Ideal.exp (mp - mNew mp s) * lp + ∑ kk : Fin n, Ideal.exp (s kk - mNew mp s)

/-- The running numerator after the block, against the block's value entries `v`. -/
def aNew {n : Nat} (mp ap : EReal) (s v : Fin n → EReal) : EReal :=
  Ideal.exp (mp - mNew mp s) * ap + ∑ kk : Fin n, Ideal.exp (s kk - mNew mp s) * v kk

/-! ## Four blocks: the kernel's row -/

section Row
variable (s v : Fin 4 → Fin 512 → EReal)

def m1 : EReal := mNew ⊥ (s 0)
def l1 : EReal := lNew ⊥ 0 (s 0)
def a1 : EReal := aNew ⊥ 0 (s 0) (v 0)
def m2 : EReal := mNew (m1 s) (s 1)
def l2 : EReal := lNew (m1 s) (l1 s) (s 1)
def a2 : EReal := aNew (m1 s) (a1 s v) (s 1) (v 1)
def m3 : EReal := mNew (m2 s) (s 2)
def l3 : EReal := lNew (m2 s) (l2 s) (s 2)
def a3 : EReal := aNew (m2 s) (a2 s v) (s 2) (v 2)
def m4 : EReal := mNew (m3 s) (s 3)
def l4 : EReal := lNew (m3 s) (l3 s) (s 3)
def a4 : EReal := aNew (m3 s) (a3 s v) (s 3) (v 3)

/-- What the kernel writes for the row: numerator over denominator after the fourth block. -/
def kernelRow : EReal := Ideal.div (a4 s v) (l4 s)
end Row

/-- What the reference computes for a row with all 2048 scores `S` and value entries `V`: the softmax shifted by
    the row maximum, each weight a quotient by the row's sum, summed against the values. -/
def refRow (S V : Fin 2048 → EReal) : EReal :=
  ∑ kx : Fin 2048,
    Ideal.div (Ideal.exp (S kx - max ⊥ ((Finset.univ : Finset (Fin 2048)).fold max ⊥ S)))
      (0 + ∑ kx' : Fin 2048, Ideal.exp (S kx' - max ⊥ ((Finset.univ : Finset (Fin 2048)).fold max ⊥ S))) * V kx

/-! ## Indices -/

/-- Entry `d` of the head that embedding column `e` belongs to. -/
def hd (e : Fin 1024) (d : Fin 64) : Fin 1024 := ⟨64 * (e.val / 64) + d.val, by have := e.isLt; have := d.isLt; omega⟩
/-- Key `kk` of key block `k`. -/
def key (k : Fin 4) (kk : Fin 512) : Fin 2048 := ⟨512 * k.val + kk.val, by have := k.isLt; have := kk.isLt; omega⟩

/-! ## The two results at an output index -/

section Out
variable (Q K V : Fin 4 → Fin 2048 → Fin 1024 → EReal) (W : Fin 4 → Fin 2048 → Fin 2048 → BitVec 32)

/-- The kernel's result at batch `b`, query row `r`, embedding column `e`. -/
def kernelOut (b : Fin 4) (r : Fin 2048) (e : Fin 1024) : EReal :=
  kernelRow
    (fun k kk => scoreK (fun d => Q b r (hd e d)) (fun d => K b (key k kk) (hd e d)) (W b r (key k kk)))
    (fun k kk => V b (key k kk) e)

/-- The reference's result there. -/
def refOut (b : Fin 4) (r : Fin 2048) (e : Fin 1024) : EReal :=
  refRow
    (fun kx => scoreR (fun d => Q b r (hd e d)) (fun d => K b kx (hd e d)) (W b r kx))
    (fun kx => V b kx e)
end Out

/-- An array of shape [4, 2048, 1024] (or [4, 2048, 2048]) as a function of its three coordinates. -/
abbrev arr3 {α : Type} {n0 n1 n2 : Nat} (x : (⟨3, ![n0, n1, n2]⟩ : Shape).Idx → α) (b : Fin n0) (r : Fin n1) (e : Fin n2) : α :=
  x (ValueIdx.ix3 b r e)

end Cert.Attn

end
-- ==== Proof.Finite.lean ====
/-
  What the precondition says: every entry of the query, key and value arrays is a real number.  The predicate is the
  conjunction of three `all |x| < +inf`; a conjunction of words that is 1 has both words 1, a reduction by `and`
  over every axis that is 1 met a 1 at every index, and an extended real whose absolute value `max x (-x)` is
  strictly below the top element is neither infinity.
-/
import proofs.«422484_j60060822667814_3_alg».proof.Pre_finite_inputs
import proofs.«422484_j60060822667814_3_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Finite

open Idealize.ShloMosaic Cert.Pre_finite_inputs Cert.Pre_finite_inputs.Gen

instance : Subsingleton S_.Idx := ⟨fun a b => funext fun d => d.elim0⟩

/-- An extended real whose absolute value is strictly below `+inf` is a real. -/
theorem real_of_abs_lt (x : EReal)
    (h : Ideal.cmp .olt (max x (-x)) (Ideal.ofBits .f32 0x7F800000#32) = 1#1) : ∃ y : ℝ, x = (y : EReal) := by
  have htop : Ideal.ofBits .f32 0x7F800000#32 = (⊤ : EReal) := by simp [Ideal.ofBits, Ideal.ieee]
  rw [htop] at h
  induction x using EReal.rec with
  | bot => exfalso; revert h; simp [Ideal.cmp]
  | coe y => exact ⟨y, rfl⟩
  | top => exfalso; revert h; simp [Ideal.cmp]

/-- Under the precondition every entry of the three float arrays is a real. -/
theorem real_of_pre (a0 a1 a2 : FVec Ideal S4x2048x1024 .f32) (a3 : IVec S4x2048x2048 32)
    (h : Cert.Pre_finite_inputs.fn (F := Ideal) a0 a1 a2 a3 = fun _ => 1#1) :
    (∀ i, ∃ y : ℝ, a0 i = (y : EReal)) ∧ (∀ i, ∃ y : ℝ, a1 i = (y : EReal)) ∧ (∀ i, ∃ y : ℝ, a2 i = (y : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt (a0 i) (Host.reduce_andi_all _ _ _ _ _ h0' i)
  · exact real_of_abs_lt (a1 i) (Host.reduce_andi_all _ _ _ _ _ h1 i)
  · exact real_of_abs_lt (a2 i) (Host.reduce_andi_all _ _ _ _ _ h2 i)

end Cert.Pre_finite_inputs.Finite

end
-- ==== Proof.KSpec.lean ====
/-
  The kernel's view of one grid point, as index functions of the staged blocks: the 128 lanes of a block are two
  heads of 64 entries (`col`); a row's scores against the 512 keys of the point's key block (`blkScore`); and the
  512-column slab of the resident mask block that the point reads (`maskBlk`).
-/
import proofs.«422484_j60060822667814_3_alg».proof.Proof.Gen.KernelIdeal.Skeleton
import proofs.«422484_j60060822667814_3_alg».proof.Proof.Spec
import Idealize.ShloMosaic.Lib.Pipeline.Value

noncomputable section

namespace Cert.KernelIdeal.KSpec

open Idealize.ShloMosaic Cert.KernelIdeal Cert.KernelIdeal.Gen Cert.Attn Idealize.ShloMosaic.ValueIdx

/-- Lane `64 j + d` of a 128-lane block: entry `d` of head `j` of the pair. -/
def col (j : Fin 2) (d : Fin 64) : Fin 128 := ⟨64 * j.val + d.val, by have := j.isLt; have := d.isLt; omega⟩

/-- Scores of query row `r` (head `j` of the pair) against the 512 keys of a key block `kb`, under the mask slab `w`. -/
def blkScore (w : Vec Ideal S1x2048x512 .i32) (q : Vec Ideal S1x2048x128 .f32) (kb : Vec Ideal S1x512x128 .f32)
    (j : Fin 2) (r : Fin 2048) : Fin 512 → EReal := fun kk =>
  scoreK (fun d => q (ix3 0 r (col j d))) (fun d => kb (ix3 0 kk (col j d))) (w (ix3 0 r kk))

/-- The slab of the resident mask block a point reads: 512 columns starting at `512 · k`. -/
def maskBlk (i : grid0.Coords) (x3 : Vec Ideal S1x2048x2048 .i32) : Vec Ideal S1x2048x512 .i32 :=
  View.ld x3 (Rect.unit (k0_off1 i) S1x2048x512.size (k0_off1_inb i))

end Cert.KernelIdeal.KSpec

end
-- ==== Proof.PayHead1.lean ====
/-
  Head 1 of the pair, read at an index: the masked scores, the new running maximum, the rescaling factor, the
  shifted exponentials, and the new running denominator.
-/
import proofs.«422484_j60060822667814_3_alg».proof.Proof.KSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Cert.KernelIdeal Cert.KernelIdeal.Gen Cert.KernelIdeal.KSpec Cert.Attn Idealize.ShloMosaic.ValueIdx

namespace Head1

section Layout
variable {α : Type}

/-- Lanes 64…127 of a 128-lane block: the slice at offset (0, 64) reads, at (i, d), the operand at lane 64 + d. -/
theorem slice_hi_apply {n : ℕ} (x : (⟨2, ![n, 128]⟩ : Shape).Idx → α)
    (h : (⟨2, ![n, 128]⟩ : Shape).Slices ![0, 64] ⟨2, ![n, 64]⟩) (i : Fin n) (d : Fin 64) :
    extractStridedSlice ⟨2, ![n, 64]⟩ ![0, 64] x h (ix2 i d) = x (ix2 i (col 1 d)) :=
  extractStridedSlice_apply _ x h _ _ fun a => match a with
    | ⟨0, _⟩ => by show i.val = 0 + i.val; omega
    | ⟨1, _⟩ => by show 64 * 1 + d.val = 64 + d.val; omega

/-- Column 1 of a two-column array: the slice at offset (0, 1) reads, at (i, 0), the operand at (i, 1). -/
theorem slice_col1_apply {n : ℕ} (x : (⟨2, ![n, 2]⟩ : Shape).Idx → α)
    (h : (⟨2, ![n, 2]⟩ : Shape).Slices ![0, 1] ⟨2, ![n, 1]⟩) (i : Fin n) :
    extractStridedSlice ⟨2, ![n, 1]⟩ ![0, 1] x h (ix2 i (0 : Fin 1)) = x (ix2 i (1 : Fin 2)) :=
  extractStridedSlice_apply _ x h _ _ fun a => match a with
    | ⟨0, _⟩ => by show i.val = 0 + i.val; omega
    | ⟨1, _⟩ => by show 1 = 1 + 0; rfl

/-- A vector of length a viewed as a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the operand at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout
end Head1

namespace Head1

/-! The product q·kᵀ read at an index: the contraction runs over the 64 entries of a head. -/

theorem lhs_qk_0 (i : S2048x512.Idx) (q : dot_S2048x64_S512x64_S2048x512_1_1_0_0_n_n.contr.Idx) :
    (dot_S2048x64_S512x64_S2048x512_1_1_0_0_n_n.lhsIdx i q 0).val = (i 0).val := by
  unfold DotDims.lhsIdx
  rw [dif_neg (show ¬(0 : Fin S2048x64.rank) ∈ dot_S2048x64_S512x64_S2048x512_1_1_0_0_n_n.lhsBatch by decide), dif_pos (show (0 : Fin S2048x64.rank) ∈ dot_S2048x64_S512x64_S2048x512_1_1_0_0_n_n.lhsNonContracting by decide)]
  rfl
theorem lhs_qk_1 (i : S2048x512.Idx) (q : dot_S2048x64_S512x64_S2048x512_1_1_0_0_n_n.contr.Idx) :
    (dot_S2048x64_S512x64_S2048x512_1_1_0_0_n_n.lhsIdx i q 1).val = (q ⟨0, by decide⟩).val :=
  dot_S2048x64_S512x64_S2048x512_1_1_0_0_n_n.lhsIdx_val_of_single rfl i q
theorem rhs_qk_0 (i : S2048x512.Idx) (q : dot_S2048x64_S512x64_S2048x512_1_1_0_0_n_n.contr.Idx) :
    (dot_S2048x64_S512x64_S2048x512_1_1_0_0_n_n.rhsIdx i q 0).val = (i 1).val := by
  unfold DotDims.rhsIdx
  rw [dif_neg (show ¬(0 : Fin S512x64.rank) ∈ dot_S2048x64_S512x64_S2048x512_1_1_0_0_n_n.rhsBatch by decide), dif_pos (show (0 : Fin S512x64.rank) ∈ dot_S2048x64_S512x64_S2048x512_1_1_0_0_n_n.rhsNonContracting by decide)]
  rfl
theorem rhs_qk_1 (i : S2048x512.Idx) (q : dot_S2048x64_S512x64_S2048x512_1_1_0_0_n_n.contr.Idx) :
    (dot_S2048x64_S512x64_S2048x512_1_1_0_0_n_n.rhsIdx i q 1).val = (q ⟨0, by decide⟩).val :=
  dot_S2048x64_S512x64_S2048x512_1_1_0_0_n_n.rhsIdx_val_of_single rfl i q

/-- The product into the zero splat, at (r, kk): the sum over the 64 entries d of lhs (r, d) · rhs (kk, d). -/
theorem matmul_qk_apply {φ₁ φ₂ : FTy} (lhs : FVec Ideal S2048x64 φ₁) (rhs : FVec Ideal S512x64 φ₂) (r : Fin 2048) (kk : Fin 512) :
    matmul (F := Ideal) dot_S2048x64_S512x64_S2048x512_1_1_0_0_n_n none lhs rhs (constant (F := Ideal) S2048x512 .f32 0x00000000#32) (ix2 r kk)
      = ∑ d : Fin 64, lhs (ix2 r d) * rhs (ix2 kk d) := by
  show FloatOps.matmul dot_S2048x64_S512x64_S2048x512_1_1_0_0_n_n none lhs rhs (constant (F := Ideal) S2048x512 .f32 0x00000000#32) (ix2 r kk) = _
  rw [Ideal.matmul_constant_zero_apply, ← Equiv.sum_comp (ValueIdx.contrEquiv1 dot_S2048x64_S512x64_S2048x512_1_1_0_0_n_n 64 rfl rfl).symm]
  refine Finset.sum_congr rfl fun k _ => ?_
  have hk := ValueIdx.contrEquiv1_symm_val dot_S2048x64_S512x64_S2048x512_1_1_0_0_n_n 64 rfl rfl k
  have el : dot_S2048x64_S512x64_S2048x512_1_1_0_0_n_n.lhsIdx (ix2 r kk) ((ValueIdx.contrEquiv1 dot_S2048x64_S512x64_S2048x512_1_1_0_0_n_n 64 rfl rfl).symm k) = ix2 r k := funext fun a => Fin.ext (by
    match a with
    | ⟨0, _⟩ => exact lhs_qk_0 _ _
    | ⟨1, _⟩ => exact (lhs_qk_1 _ _).trans hk)
  have er : dot_S2048x64_S512x64_S2048x512_1_1_0_0_n_n.rhsIdx (ix2 r kk) ((ValueIdx.contrEquiv1 dot_S2048x64_S512x64_S2048x512_1_1_0_0_n_n 64 rfl rfl).symm k) = ix2 kk k := funext fun a => Fin.ext (by
    match a with
    | ⟨0, _⟩ => exact rhs_qk_0 _ _
    | ⟨1, _⟩ => exact (rhs_qk_1 _ _).trans hk)
  rw [el, er]

/-! The lane reductions of a [2048, 512] block read at a row. -/

/-- The lane maximum of row r: the fold of max from ⊥ over the row's 512 entries. -/
theorem rowMax_apply (src : FVec Ideal S2048x512 .f32) (h : S2048x512.Reduces [1] S2048) (hφ : FKind.Formats .f32)
    (hacc : (0xFF800000#32 : BitVec 32) = 0xFF800000#32) (r : Fin 2048) :
    multiReduction (F := Ideal) .maximumf [1] S2048 src 0xFF800000#32 h hφ hacc (ix1 r)
      = (Finset.univ : Finset (Fin 512)).fold max ⊥ (fun kk => src (ix2 r kk)) := by
  refine (Ideal.multiReduction_maximumf_single src 0xFF800000#32 h hφ hacc (ix1 r)).trans ?_
  have e : (FloatOps.ofBits (F := Ideal) .f32 0xFF800000#32) = (⊥ : EReal) := Cert.Attn.ofBits_neg_inf
  have f : (src ∘ h.lift (ix1 r)) = fun kk : Fin 512 => src (ix2 r kk) := funext fun kk => congrArg src (funext fun a => Fin.ext (by
    match a with
    | ⟨0, _⟩ => rfl
    | ⟨1, _⟩ => rfl))
  rw [e, f]
  rfl

/-- The lane sum of row r: the sum of the row's 512 entries. -/
theorem rowSum_apply (src : FVec Ideal S2048x512 .f32) (h : S2048x512.Reduces [1] S2048) (hφ : FKind.Formats .f32)
    (hacc : (0x00000000#32 : BitVec 32) = 0x00000000#32) (r : Fin 2048) :
    multiReduction (F := Ideal) .add [1] S2048 src 0x00000000#32 h hφ hacc (ix1 r)
      = ∑ kk : Fin 512, src (ix2 r kk) := by
  refine (Ideal.multiReduction_add_single src 0x00000000#32 h hφ hacc (ix1 r)).trans ?_
  refine Finset.sum_congr rfl fun kk _ => congrArg src (funext fun a => Fin.ext (by
    match a with
    | ⟨0, _⟩ => rfl
    | ⟨1, _⟩ => rfl))

end Head1

variable (v7 : Vec Ideal S1x2048x512 .i32) (v11 : Vec Ideal S1x2048x128 .f32) (v13 v15 : Vec Ideal S1x512x128 .f32)
  (v17 : Vec Ideal S2048x128 .f32) (v18 v19 : Vec Ideal S2048x2 .f32)

namespace Head1

/-- The mask bit of (r, kk): whether the mask word there is zero. -/
theorem mask_apply (r : Fin 2048) (kk : Fin 512) :
    k0_pay9 (F := Ideal) v7 (ix2 r kk) = IntOp.cmpi .eq (v7 (ix3 0 r kk)) 0#32 := by
  unfold k0_pay9
  exact congrArg (fun w => IntOp.cmpi .eq w 0#32) (shapeCast_1ab_ab_apply v7 _ r kk)

/-- The query block without its unit axis. -/
theorem q_apply (r : Fin 2048) (c : Fin 128) : k0_pay10 (F := Ideal) v11 (ix2 r c) = v11 (ix3 0 r c) := by
  unfold k0_pay10
  exact shapeCast_1ab_ab_apply v11 _ r c

/-- The key block without its unit axis. -/
theorem k_apply (kk : Fin 512) (c : Fin 128) : k0_pay11 (F := Ideal) v13 (ix2 kk c) = v13 (ix3 0 kk c) := by
  unfold k0_pay11
  exact shapeCast_1ab_ab_apply v13 _ kk c

end Head1

/-- The masked score of row `r` against key `kk`, head 1. -/
theorem s1_apply (r : Fin 2048) (kk : Fin 512) :
    k0_pay29 (F := Ideal) (k0_pay9 v7) (k0_pay10 v11) (k0_pay11 v13) (ix2 r kk) = blkScore v7 v11 v13 1 r kk := by
  unfold k0_pay29 blkScore scoreK
  dsimp only
  rw [select_apply, Head1.mask_apply, Head1.matmul_qk_apply]
  refine congrArg (Scalar.select (IntOp.cmpi .eq (v7 (ix3 0 r kk)) 0#32) negBig) (Finset.sum_congr rfl fun d _ => ?_)
  show (extractStridedSlice S2048x64 ![0, 64] (k0_pay10 v11) slices_S2048x128_o0_64_S2048x64 (ix2 r d) * scale)
      * extractStridedSlice S512x64 ![0, 64] (k0_pay11 v13) slices_S512x128_o0_64_S512x64 (ix2 kk d) = _
  rw [Head1.slice_hi_apply, Head1.slice_hi_apply, Head1.q_apply, Head1.k_apply]

/-- The new running maximum of row `r`, head 1. -/
theorem mx1_apply (r : Fin 2048) :
    k0_pay30 (F := Ideal) (k0_pay9 v7) (k0_pay10 v11) (k0_pay11 v13) v18 (ix2 r (0 : Fin 1))
      = mNew (v18 (ix2 r (1 : Fin 2))) (blkScore v7 v11 v13 1 r) := by
  unfold k0_pay30 k0_pay27 mNew
  dsimp only
  rw [maximumf_apply, Head1.slice_col1_apply, Head1.shapeCast_a_a1_apply, Head1.rowMax_apply]
  exact congrArg (max (v18 (ix2 r (1 : Fin 2))))
    (congrArg ((Finset.univ : Finset (Fin 512)).fold max ⊥) (funext fun kk => s1_apply v7 v11 v13 r kk))

/-- The factor that rescales the old sums, head 1. -/
theorem al1_apply (r : Fin 2048) :
    k0_pay31 (F := Ideal) (k0_pay9 v7) (k0_pay10 v11) (k0_pay11 v13) v18 (ix2 r (0 : Fin 1))
      = Ideal.exp (v18 (ix2 r (1 : Fin 2)) - mNew (v18 (ix2 r (1 : Fin 2))) (blkScore v7 v11 v13 1 r)) := by
  unfold k0_pay31 k0_pay27
  dsimp only
  show Ideal.exp (extractStridedSlice S2048x1 ![0, 1] v18 slices_S2048x2_o0_1_S2048x1 (ix2 r (0 : Fin 1))
      - k0_pay30 (F := Ideal) (k0_pay9 v7) (k0_pay10 v11) (k0_pay11 v13) v18 (ix2 r (0 : Fin 1))) = _
  rw [Head1.slice_col1_apply, mx1_apply]

/-- The shifted exponential of one score, head 1. -/
theorem p1_apply (r : Fin 2048) (kk : Fin 512) :
    k0_pay1 (F := Ideal) (k0_pay32 (k0_pay9 v7) (k0_pay10 v11) (k0_pay11 v13) v18) (ix2 r kk)
      = Ideal.exp (blkScore v7 v11 v13 1 r kk - mNew (v18 (ix2 r (1 : Fin 2))) (blkScore v7 v11 v13 1 r)) := by
  unfold k0_pay1 k0_pay32
  dsimp only
  show Ideal.exp (k0_pay29 (F := Ideal) (k0_pay9 v7) (k0_pay10 v11) (k0_pay11 v13) (ix2 r kk)
      - broadcastTo S2048x512 (k0_pay30 (F := Ideal) (k0_pay9 v7) (k0_pay10 v11) (k0_pay11 v13) v18) broadcasts_S2048x1_S2048x512 (ix2 r kk)) = _
  rw [Head1.broadcastTo_a1_ab_apply, s1_apply, mx1_apply]

/-- What is stored as the new maximum, head 1. -/
theorem m1_apply (r : Fin 2048) :
    k0_pay2 (F := Ideal) (k0_pay30 (k0_pay9 v7) (k0_pay10 v11) (k0_pay11 v13) v18) (ix2 r (0 : Fin 1))
      = mNew (v18 (ix2 r (1 : Fin 2))) (blkScore v7 v11 v13 1 r) := by
  unfold k0_pay2
  rw [shapeCast_self, mx1_apply]

/-- What is stored as the new denominator, head 1. -/
theorem l1_apply (r : Fin 2048) :
    k0_pay3 (F := Ideal) (k0_pay28 v19) (k0_pay31 (k0_pay9 v7) (k0_pay10 v11) (k0_pay11 v13) v18)
        (k0_pay32 (k0_pay9 v7) (k0_pay10 v11) (k0_pay11 v13) v18) (ix2 r (0 : Fin 1))
      = lNew (v18 (ix2 r (1 : Fin 2))) (v19 (ix2 r (1 : Fin 2))) (blkScore v7 v11 v13 1 r) := by
  unfold k0_pay3 k0_pay28 lNew
  dsimp only
  rw [shapeCast_self, addf_apply, mulf_apply, al1_apply, Head1.slice_col1_apply, Head1.shapeCast_a_a1_apply, Head1.rowSum_apply]
  exact congrArg (Ideal.exp (v18 (ix2 r (1 : Fin 2)) - mNew (v18 (ix2 r (1 : Fin 2))) (blkScore v7 v11 v13 1 r)) * v19 (ix2 r (1 : Fin 2)) + ·)
    (Finset.sum_congr rfl fun kk _ => p1_apply v7 v11 v13 v18 r kk)

end Cert.KernelIdeal.Pay

end
-- ==== Proof.PayHead0.lean ====
/-
  Head 0 of the pair, read at an index: the masked scores of a row against the key block, the new running maximum,
  the rescaling factor, the shifted exponentials, and the new running denominator.
-/
import proofs.«422484_j60060822667814_3_alg».proof.Proof.KSpec
import proofs.«422484_j60060822667814_3_alg».proof.Proof.PayHead1
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Cert.KernelIdeal Cert.KernelIdeal.Gen Cert.KernelIdeal.KSpec Cert.Attn Idealize.ShloMosaic.ValueIdx

namespace Head0

section Layout
variable {α : Type}

/-- Lanes 0…63 of a 128-lane block: the slice at offset (0, 0) reads, at (i, d), the operand at lane d. -/
theorem slice_lo_apply {n : ℕ} (x : (⟨2, ![n, 128]⟩ : Shape).Idx → α)
    (h : (⟨2, ![n, 128]⟩ : Shape).Slices ![0, 0] ⟨2, ![n, 64]⟩) (i : Fin n) (d : Fin 64) :
    extractStridedSlice ⟨2, ![n, 64]⟩ ![0, 0] x h (ix2 i d) = x (ix2 i (col 0 d)) :=
  extractStridedSlice_apply _ x h _ _ fun a => match a with
    | ⟨0, _⟩ => by show i.val = 0 + i.val; omega
    | ⟨1, _⟩ => by show 64 * 0 + d.val = 0 + d.val; omega

/-- Column 0 of a two-column array: the slice at offset (0, 0) reads, at (i, 0), the operand at (i, 0). -/
theorem slice_col0_apply {n : ℕ} (x : (⟨2, ![n, 2]⟩ : Shape).Idx → α)
    (h : (⟨2, ![n, 2]⟩ : Shape).Slices ![0, 0] ⟨2, ![n, 1]⟩) (i : Fin n) :
    extractStridedSlice ⟨2, ![n, 1]⟩ ![0, 0] x h (ix2 i (0 : Fin 1)) = x (ix2 i (0 : Fin 2)) :=
  extractStridedSlice_apply _ x h _ _ fun a => match a with
    | ⟨0, _⟩ => by show i.val = 0 + i.val; omega
    | ⟨1, _⟩ => by show 0 = 0 + 0; rfl

end Layout
end Head0

variable (v7 : Vec Ideal S1x2048x512 .i32) (v11 : Vec Ideal S1x2048x128 .f32) (v13 v15 : Vec Ideal S1x512x128 .f32)
  (v17 : Vec Ideal S2048x128 .f32) (v18 v19 : Vec Ideal S2048x2 .f32)

namespace Head0

/-- The old running maximum of head 0 is column 0 of the two-column scratch. -/
theorem mprev_apply (r : Fin 2048) : k0_pay15 (F := Ideal) v18 (ix2 r (0 : Fin 1)) = v18 (ix2 r (0 : Fin 2)) := by
  unfold k0_pay15
  exact slice_col0_apply v18 _ r

/-- The old running denominator of head 0 is column 0 of the two-column scratch. -/
theorem lprev_apply (r : Fin 2048) : k0_pay16 (F := Ideal) v19 (ix2 r (0 : Fin 1)) = v19 (ix2 r (0 : Fin 2)) := by
  unfold k0_pay16
  exact slice_col0_apply v19 _ r

end Head0

/-- The masked score of row `r` against key `kk`, head 0. -/
theorem s0_apply (r : Fin 2048) (kk : Fin 512) :
    k0_pay18 (F := Ideal) (k0_pay9 v7) (k0_pay17 v11 v13) (ix2 r kk) = blkScore v7 v11 v13 0 r kk := by
  unfold k0_pay18 k0_pay17 blkScore scoreK
  dsimp only
  rw [select_apply, Head1.mask_apply, Head1.matmul_qk_apply]
  refine congrArg (Scalar.select (IntOp.cmpi .eq (v7 (ix3 0 r kk)) 0#32) negBig) (Finset.sum_congr rfl fun d _ => ?_)
  show (extractStridedSlice S2048x64 ![0, 0] (k0_pay10 v11) slices_S2048x128_o0_0_S2048x64 (ix2 r d) * scale)
      * extractStridedSlice S512x64 ![0, 0] (k0_pay11 v13) slices_S512x128_o0_0_S512x64 (ix2 kk d) = _
  rw [Head0.slice_lo_apply, Head0.slice_lo_apply, Head1.q_apply, Head1.k_apply]

/-- The new running maximum of row `r`, head 0. -/
theorem mx0_apply (r : Fin 2048) :
    k0_pay19 (F := Ideal) (k0_pay9 v7) (k0_pay15 v18) (k0_pay17 v11 v13) (ix2 r (0 : Fin 1))
      = mNew (v18 (ix2 r (0 : Fin 2))) (blkScore v7 v11 v13 0 r) := by
  unfold k0_pay19 mNew
  dsimp only
  rw [maximumf_apply, Head0.mprev_apply, Head1.shapeCast_a_a1_apply, Head1.rowMax_apply]
  exact congrArg (max (v18 (ix2 r (0 : Fin 2))))
    (congrArg ((Finset.univ : Finset (Fin 512)).fold max ⊥) (funext fun kk => s0_apply v7 v11 v13 r kk))

/-- The factor that rescales the old sums, head 0. -/
theorem al0_apply (r : Fin 2048) :
    k0_pay20 (F := Ideal) (k0_pay9 v7) (k0_pay15 v18) (k0_pay17 v11 v13) (ix2 r (0 : Fin 1))
      = Ideal.exp (v18 (ix2 r (0 : Fin 2)) - mNew (v18 (ix2 r (0 : Fin 2))) (blkScore v7 v11 v13 0 r)) := by
  unfold k0_pay20
  show Ideal.exp (k0_pay15 (F := Ideal) v18 (ix2 r (0 : Fin 1))
      - k0_pay19 (F := Ideal) (k0_pay9 v7) (k0_pay15 v18) (k0_pay17 v11 v13) (ix2 r (0 : Fin 1))) = _
  rw [Head0.mprev_apply, mx0_apply]

/-- The shifted exponential of one score, head 0. -/
theorem p0_apply (r : Fin 2048) (kk : Fin 512) :
    k0_pay21 (F := Ideal) (k0_pay9 v7) (k0_pay15 v18) (k0_pay17 v11 v13) (ix2 r kk)
      = Ideal.exp (blkScore v7 v11 v13 0 r kk - mNew (v18 (ix2 r (0 : Fin 2))) (blkScore v7 v11 v13 0 r)) := by
  unfold k0_pay21
  show Ideal.exp (k0_pay18 (F := Ideal) (k0_pay9 v7) (k0_pay17 v11 v13) (ix2 r kk)
      - broadcastTo S2048x512 (k0_pay19 (F := Ideal) (k0_pay9 v7) (k0_pay15 v18) (k0_pay17 v11 v13)) broadcasts_S2048x1_S2048x512 (ix2 r kk)) = _
  rw [Head1.broadcastTo_a1_ab_apply, s0_apply, mx0_apply]

/-- What is stored as the new maximum, head 0. -/
theorem m0_apply (r : Fin 2048) :
    k0_pay23 (F := Ideal) (k0_pay9 v7) (k0_pay15 v18) (k0_pay17 v11 v13) (ix2 r (0 : Fin 1))
      = mNew (v18 (ix2 r (0 : Fin 2))) (blkScore v7 v11 v13 0 r) := by
  unfold k0_pay23
  rw [shapeCast_self, mx0_apply]

/-- What is stored as the new denominator, head 0. -/
theorem l0_apply (r : Fin 2048) :
    k0_pay24 (F := Ideal) (k0_pay9 v7) (k0_pay15 v18) (k0_pay16 v19) (k0_pay17 v11 v13) (ix2 r (0 : Fin 1))
      = lNew (v18 (ix2 r (0 : Fin 2))) (v19 (ix2 r (0 : Fin 2))) (blkScore v7 v11 v13 0 r) := by
  unfold k0_pay24 lNew
  dsimp only
  rw [shapeCast_self, addf_apply, mulf_apply, al0_apply, Head0.lprev_apply, Head1.shapeCast_a_a1_apply, Head1.rowSum_apply]
  exact congrArg (Ideal.exp (v18 (ix2 r (0 : Fin 2)) - mNew (v18 (ix2 r (0 : Fin 2))) (blkScore v7 v11 v13 0 r)) * v19 (ix2 r (0 : Fin 2)) + ·)
    (Finset.sum_congr rfl fun kk _ => p0_apply v7 v11 v13 v18 r kk)

end Cert.KernelIdeal.Pay

end
-- ==== Proof.PayAcc.lean ====
/-
  The new running numerator (both heads side by side in the 128 lanes), the final quotient, and the three reset
  values, read at an index.
-/
import proofs.«422484_j60060822667814_3_alg».proof.Proof.KSpec
import proofs.«422484_j60060822667814_3_alg».proof.Proof.PayHead0
import proofs.«422484_j60060822667814_3_alg».proof.Proof.PayHead1
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Cert.KernelIdeal Cert.KernelIdeal.Gen Cert.KernelIdeal.KSpec Cert.Attn Idealize.ShloMosaic.ValueIdx

variable (v7 : Vec Ideal S1x2048x512 .i32) (v11 : Vec Ideal S1x2048x128 .f32) (v13 v15 : Vec Ideal S1x512x128 .f32)
  (v17 : Vec Ideal S2048x128 .f32) (v18 v19 : Vec Ideal S2048x2 .f32)

/-! # Auxiliary readings -/

namespace Acc

/-- A head index of the pair is the first or the second. -/
theorem fin2_cases (j : Fin 2) : j = 0 ∨ j = 1 := by omega

/-! ## Two 64-lane pieces side by side -/

/-- Lane `d` of the concatenation (head 0) is lane `d` of the first piece. -/
theorem concat_col0 {α : Type} (x₀ x₁ : S2048x64.Idx → α) (r : Fin 2048) (d : Fin 64) :
    concatenate S2048x128 1 [⟨S2048x64, x₀⟩, ⟨S2048x64, x₁⟩] concatenates_S2048x64_S2048x64_S2048x128_d1 (ix2 r (col 0 d))
      = x₀ (ix2 r d) :=
  concatenate_pair_apply_left 1 x₀ x₁ concatenates_S2048x64_S2048x64_S2048x128_d1 _ rfl _ (fun b => by
    match b with
    | ⟨0, _⟩ => rfl
    | ⟨1, _⟩ => show d.val = 64 * (0 : Fin 2).val + d.val; simp)

/-- Lane `64 + d` of the concatenation (head 1) is lane `d` of the second piece. -/
theorem concat_col1 {α : Type} (x₀ x₁ : S2048x64.Idx → α) (r : Fin 2048) (d : Fin 64) :
    concatenate S2048x128 1 [⟨S2048x64, x₀⟩, ⟨S2048x64, x₁⟩] concatenates_S2048x64_S2048x64_S2048x128_d1 (ix2 r (col 1 d))
      = x₁ (ix2 r d) :=
  concatenate_pair_apply_right 1 x₀ x₁ concatenates_S2048x64_S2048x64_S2048x128_d1 _ rfl rfl _
    (fun b hb => by
      match b with
      | ⟨0, _⟩ => rfl
      | ⟨1, _⟩ => exact absurd rfl hb)
    (by show d.val + 64 = 64 * (1 : Fin 2).val + d.val; simp; omega)

/-! ## A column broadcast along the lanes, and the slices of a pair of columns -/

/-- A [2048,1] column broadcast to 64 lanes reads the column's row entry at every lane. -/
theorem bcast64_apply {α : Type} (x : S2048x1.Idx → α) (r : Fin 2048) (d : Fin 64) :
    broadcastTo S2048x64 x broadcasts_S2048x1_S2048x64 (ix2 r d) = x (ix2 r (0 : Fin 1)) :=
  broadcastTo_apply x broadcasts_S2048x1_S2048x64 (ix2 r d) (ix2 r (0 : Fin 1)) (fun a => by
    match a with
    | ⟨0, _⟩ => rfl
    | ⟨1, _⟩ => rfl)

/-- Column 0 of a [2048,2] pair. -/
theorem slice2_0_apply {α : Type} (x : S2048x2.Idx → α) (r : Fin 2048) :
    extractStridedSlice S2048x1 ![0, 0] x slices_S2048x2_o0_0_S2048x1 (ix2 r (0 : Fin 1)) = x (ix2 r (0 : Fin 2)) :=
  extractStridedSlice_apply ![0, 0] x slices_S2048x2_o0_0_S2048x1 _ (ix2 r (0 : Fin 2)) (fun a => by
    match a with
    | ⟨0, _⟩ => show r.val = 0 + r.val; omega
    | ⟨1, _⟩ => rfl)

/-- Column 1 of a [2048,2] pair. -/
theorem slice2_1_apply {α : Type} (x : S2048x2.Idx → α) (r : Fin 2048) :
    extractStridedSlice S2048x1 ![0, 1] x slices_S2048x2_o0_1_S2048x1 (ix2 r (0 : Fin 1)) = x (ix2 r (1 : Fin 2)) :=
  extractStridedSlice_apply ![0, 1] x slices_S2048x2_o0_1_S2048x1 _ (ix2 r (1 : Fin 2)) (fun a => by
    match a with
    | ⟨0, _⟩ => show r.val = 0 + r.val; omega
    | ⟨1, _⟩ => rfl)

/-! ## The block's weights against its value entries: a product contracting the 512 keys -/

/-- The weights' row coordinate is the result's row. -/
theorem lhs_pv_0 (i : S2048x64.Idx) (q : dot_S2048x512_S512x64_S2048x64_1_0_0_1_n_n.contr.Idx) :
    (dot_S2048x512_S512x64_S2048x64_1_0_0_1_n_n.lhsIdx i q 0).val = (i 0).val := by
  unfold DotDims.lhsIdx
  rw [dif_neg (show ¬(0 : Fin S2048x512.rank) ∈ dot_S2048x512_S512x64_S2048x64_1_0_0_1_n_n.lhsBatch by decide), dif_pos (show (0 : Fin S2048x512.rank) ∈ dot_S2048x512_S512x64_S2048x64_1_0_0_1_n_n.lhsNonContracting by decide)]
  rfl
/-- The weights' column coordinate is the contracted key. -/
theorem lhs_pv_1 (i : S2048x64.Idx) (q : dot_S2048x512_S512x64_S2048x64_1_0_0_1_n_n.contr.Idx) :
    (dot_S2048x512_S512x64_S2048x64_1_0_0_1_n_n.lhsIdx i q 1).val = (q ⟨0, by decide⟩).val :=
  dot_S2048x512_S512x64_S2048x64_1_0_0_1_n_n.lhsIdx_val_of_single rfl i q
/-- The values' row coordinate is the contracted key. -/
theorem rhs_pv_0 (i : S2048x64.Idx) (q : dot_S2048x512_S512x64_S2048x64_1_0_0_1_n_n.contr.Idx) :
    (dot_S2048x512_S512x64_S2048x64_1_0_0_1_n_n.rhsIdx i q 0).val = (q ⟨0, by decide⟩).val :=
  dot_S2048x512_S512x64_S2048x64_1_0_0_1_n_n.rhsIdx_val_of_single rfl i q
/-- The values' column coordinate is the result's column. -/
theorem rhs_pv_1 (i : S2048x64.Idx) (q : dot_S2048x512_S512x64_S2048x64_1_0_0_1_n_n.contr.Idx) :
    (dot_S2048x512_S512x64_S2048x64_1_0_0_1_n_n.rhsIdx i q 1).val = (i 1).val := by
  unfold DotDims.rhsIdx
  rw [dif_neg (show ¬(1 : Fin S512x64.rank) ∈ dot_S2048x512_S512x64_S2048x64_1_0_0_1_n_n.rhsBatch by decide), dif_pos (show (1 : Fin S512x64.rank) ∈ dot_S2048x512_S512x64_S2048x64_1_0_0_1_n_n.rhsNonContracting by decide)]
  rfl

/-- Entry `(r, d)` of the product into the zero accumulator: the sum over the 512 keys of the weight at `(r, kk)` times
    the value entry at `(kk, d)`. -/
theorem pv_apply (p : FVec Ideal S2048x512 .bf16) (v : FVec Ideal S512x64 .bf16) (r : Fin 2048) (d : Fin 64) :
    matmul dot_S2048x512_S512x64_S2048x64_1_0_0_1_n_n none p v (constant S2048x64 .f32 0x00000000#32) (ix2 r d)
      = ∑ kk : Fin 512, p (ix2 r kk) * v (ix2 kk d) := by
  refine (Ideal.matmul_constant_zero_apply dot_S2048x512_S512x64_S2048x64_1_0_0_1_n_n none p v (ix2 r d)).trans ?_
  rw [← Equiv.sum_comp (ValueIdx.contrEquiv1 dot_S2048x512_S512x64_S2048x64_1_0_0_1_n_n 512 rfl rfl).symm]
  refine Finset.sum_congr rfl fun k _ => ?_
  have hk := ValueIdx.contrEquiv1_symm_val dot_S2048x512_S512x64_S2048x64_1_0_0_1_n_n 512 rfl rfl k
  have el : dot_S2048x512_S512x64_S2048x64_1_0_0_1_n_n.lhsIdx (ix2 r d) ((ValueIdx.contrEquiv1 dot_S2048x512_S512x64_S2048x64_1_0_0_1_n_n 512 rfl rfl).symm k) = ix2 r k := funext fun a => Fin.ext (by
    match a with
    | ⟨0, _⟩ => exact lhs_pv_0 _ _
    | ⟨1, _⟩ => exact (lhs_pv_1 _ _).trans hk)
  have er : dot_S2048x512_S512x64_S2048x64_1_0_0_1_n_n.rhsIdx (ix2 r d) ((ValueIdx.contrEquiv1 dot_S2048x512_S512x64_S2048x64_1_0_0_1_n_n 512 rfl rfl).symm k) = ix2 k d := funext fun a => Fin.ext (by
    match a with
    | ⟨0, _⟩ => exact (rhs_pv_0 _ _).trans hk
    | ⟨1, _⟩ => exact rhs_pv_1 _ _)
  rw [el, er]

/-! ## The staged blocks read through the body's layout operations -/

/-- The value block without its unit axis. -/
theorem pay12_apply (kk : Fin 512) (c : Fin 128) : k0_pay12 (F := Ideal) v15 (ix2 kk c) = v15 (ix3 0 kk c) := by
  unfold k0_pay12
  refine shapeCast_apply v15 shapeCasts_S1x512x128_S512x128 (ix2 kk c) (ix3 0 kk c) ?_
  rw [Shape.rowMajor_val_two, Shape.rowMajor_val_three]
  show ((0 : Fin 1).val * 512 + kk.val) * 128 + c.val = kk.val * 128 + c.val
  simp

/-- Head 0's value entries: lanes 0…63 of the value block. -/
theorem pay13_apply (kk : Fin 512) (d : Fin 64) : k0_pay13 (F := Ideal) v15 (ix2 kk d) = v15 (ix3 0 kk (col 0 d)) := by
  unfold k0_pay13
  rw [truncf_apply]
  refine (extractStridedSlice_apply ![0, 0] _ slices_S512x128_o0_0_S512x64 (ix2 kk d) (ix2 kk (col 0 d)) (fun a => by
    match a with
    | ⟨0, _⟩ => show kk.val = 0 + kk.val; omega
    | ⟨1, _⟩ => show 64 * (0 : Fin 2).val + d.val = 0 + d.val; simp)).trans ?_
  exact pay12_apply v15 kk (col 0 d)

/-- Head 1's value entries: lanes 64…127 of the value block. -/
theorem pay25_apply (kk : Fin 512) (d : Fin 64) :
    k0_pay25 (F := Ideal) (k0_pay12 v15) (ix2 kk d) = v15 (ix3 0 kk (col 1 d)) := by
  unfold k0_pay25
  rw [truncf_apply]
  refine (extractStridedSlice_apply ![0, 64] _ slices_S512x128_o0_64_S512x64 (ix2 kk d) (ix2 kk (col 1 d)) (fun a => by
    match a with
    | ⟨0, _⟩ => show kk.val = 0 + kk.val; omega
    | ⟨1, _⟩ => show 64 * (1 : Fin 2).val + d.val = 64 + d.val; simp)).trans ?_
  exact pay12_apply v15 kk (col 1 d)

/-- Head 0's old numerator: lanes 0…63 of the running numerator. -/
theorem pay14_apply (r : Fin 2048) (d : Fin 64) : k0_pay14 (F := Ideal) v17 (ix2 r d) = v17 (ix2 r (col 0 d)) := by
  unfold k0_pay14
  exact extractStridedSlice_apply ![0, 0] v17 slices_S2048x128_o0_0_S2048x64 (ix2 r d) (ix2 r (col 0 d)) (fun a => by
    match a with
    | ⟨0, _⟩ => show r.val = 0 + r.val; omega
    | ⟨1, _⟩ => show 64 * (0 : Fin 2).val + d.val = 0 + d.val; simp)

/-- Head 1's old numerator: lanes 64…127 of the running numerator. -/
theorem pay26_apply (r : Fin 2048) (d : Fin 64) : k0_pay26 (F := Ideal) v17 (ix2 r d) = v17 (ix2 r (col 1 d)) := by
  unfold k0_pay26
  exact extractStridedSlice_apply ![0, 64] v17 slices_S2048x128_o0_64_S2048x64 (ix2 r d) (ix2 r (col 1 d)) (fun a => by
    match a with
    | ⟨0, _⟩ => show r.val = 0 + r.val; omega
    | ⟨1, _⟩ => show 64 * (1 : Fin 2).val + d.val = 64 + d.val; simp)

/-! ## The two heads' new numerators -/

/-- Head 0's new numerator at `(r, d)`: the rescaling factor times the old entry, plus the weights against the values. -/
theorem pay22_apply (v10 : IVec S2048x512 1) (v27 : FVec Ideal S512x64 .bf16) (v28 : FVec Ideal S2048x64 .f32)
    (v29 : FVec Ideal S2048x1 .f32) (v31 : FVec Ideal S2048x512 .f32) (r : Fin 2048) (d : Fin 64) :
    k0_pay22 (F := Ideal) v10 v27 v28 v29 v31 (ix2 r d)
      = k0_pay20 v10 v29 v31 (ix2 r (0 : Fin 1)) * v28 (ix2 r d)
        + ∑ kk : Fin 512, k0_pay21 v10 v29 v31 (ix2 r kk) * v27 (ix2 kk d) := by
  unfold k0_pay22
  rw [addf_apply, mulf_apply, bcast64_apply, pv_apply]
  rfl

/-- The numerator's lanes 0…63 are head 0's piece. -/
theorem pay4_left (v50 v65 : FVec Ideal S2048x64 .f32) (v64 : FVec Ideal S512x64 .bf16) (v75 : FVec Ideal S2048x1 .f32)
    (v77 : FVec Ideal S2048x512 .f32) (r : Fin 2048) (d : Fin 64) :
    k0_pay4 (F := Ideal) v50 v64 v65 v75 v77 (ix2 r (col 0 d)) = v50 (ix2 r d) := by
  unfold k0_pay4
  rw [shapeCast_self, concat_col0]

/-- The numerator's lanes 64…127 are head 1's piece: its rescaling factor times the old entry, plus its weights
    against its values. -/
theorem pay4_right (v50 v65 : FVec Ideal S2048x64 .f32) (v64 : FVec Ideal S512x64 .bf16) (v75 : FVec Ideal S2048x1 .f32)
    (v77 : FVec Ideal S2048x512 .f32) (r : Fin 2048) (d : Fin 64) :
    k0_pay4 (F := Ideal) v50 v64 v65 v75 v77 (ix2 r (col 1 d))
      = v75 (ix2 r (0 : Fin 1)) * v65 (ix2 r d) + ∑ kk : Fin 512, k0_pay1 v77 (ix2 r kk) * v64 (ix2 kk d) := by
  unfold k0_pay4
  rw [shapeCast_self, concat_col1, addf_apply, mulf_apply, bcast64_apply, pv_apply]
  rfl

end Acc

/-- The new numerator at lane `64 j + d` of row `r`: the old one rescaled plus the block's weighted value entries. -/
theorem acc_apply (r : Fin 2048) (j : Fin 2) (d : Fin 64) :
    k0_pay4 (F := Ideal)
        (k0_pay22 (k0_pay9 v7) (k0_pay13 v15) (k0_pay14 v17) (k0_pay15 v18) (k0_pay17 v11 v13))
        (k0_pay25 (k0_pay12 v15)) (k0_pay26 v17)
        (k0_pay31 (k0_pay9 v7) (k0_pay10 v11) (k0_pay11 v13) v18)
        (k0_pay32 (k0_pay9 v7) (k0_pay10 v11) (k0_pay11 v13) v18) (ix2 r (col j d))
      = aNew (v18 (ix2 r j)) (v17 (ix2 r (col j d))) (blkScore v7 v11 v13 j r) (fun kk => v15 (ix3 0 kk (col j d))) := by
  rcases Acc.fin2_cases j with rfl | rfl
  · -- head 0: lanes 0…63 hold the first piece
    rw [Acc.pay4_left, Acc.pay22_apply, al0_apply, Acc.pay14_apply]
    unfold aNew
    congr 1
    refine Finset.sum_congr rfl fun kk _ => ?_
    rw [p0_apply, Acc.pay13_apply]
  · -- head 1: lanes 64…127 hold the second piece
    rw [Acc.pay4_right, al1_apply, Acc.pay26_apply]
    unfold aNew
    congr 1
    refine Finset.sum_congr rfl fun kk _ => ?_
    rw [p1_apply, Acc.pay25_apply]

/-- The final quotient at lane `64 j + d`: the numerator there over head `j`'s denominator. -/
theorem out_apply (v100 : Vec Ideal S2048x2 .f32) (v108 : Vec Ideal S2048x128 .f32) (r : Fin 2048) (j : Fin 2) (d : Fin 64) :
    k0_pay5 (F := Ideal) v100 v108 (ix3 0 r (col j d)) = Ideal.div (v108 (ix2 r (col j d))) (v100 (ix2 r j)) := by
  unfold k0_pay5
  -- the added unit axis: index (0, r, c) of the result is index (r, c) of the quotient
  refine (shapeCast_apply _ shapeCasts_S2048x128_S1x2048x128 (ix3 0 r (col j d)) (ix2 r (col j d)) ?_).trans ?_
  · rw [Shape.rowMajor_val_two, Shape.rowMajor_val_three]
    show r.val * 128 + (col j d).val = ((0 : Fin 1).val * 2048 + r.val) * 128 + (col j d).val
    simp
  rw [divf_apply]
  congr 1
  -- the divisor: each head's denominator broadcast over its 64 lanes, the two side by side
  rcases Acc.fin2_cases j with rfl | rfl
  · rw [Acc.concat_col0, Acc.bcast64_apply, shapeCast_self, Acc.slice2_0_apply]
  · rw [Acc.concat_col1, Acc.bcast64_apply, shapeCast_self, Acc.slice2_1_apply]

/-- The numerator's reset value is zero. -/
theorem pay6_eq : k0_pay6 (F := Ideal) = fun _ => (0 : EReal) := by
  funext i
  unfold k0_pay6
  rw [shapeCast_self]
  show Ideal.ofBits .f32 0x00000000#32 = 0
  exact Ideal.ofBits_zero_f32
/-- The maximum's reset value is the bottom of the extended reals. -/
theorem pay7_eq : k0_pay7 (F := Ideal) = fun _ => (⊥ : EReal) := by
  funext i
  unfold k0_pay7
  rw [shapeCast_self]
  show Ideal.ofBits .f32 0xFF800000#32 = ⊥
  exact Cert.Attn.ofBits_neg_inf
/-- The denominator's reset value is zero. -/
theorem pay8_eq : k0_pay8 (F := Ideal) = fun _ => (0 : EReal) := by
  funext i
  unfold k0_pay8
  rw [shapeCast_self]
  show Ideal.ofBits .f32 0x00000000#32 = 0
  exact Ideal.ofBits_zero_f32

end Cert.KernelIdeal.Pay

end
-- ==== Proof.Pieces.lean ====
/-
  What each case of the body leaves, read at an index.  At the first key block of a group (case A) the running
  maximum, denominator and numerator start from `-inf`, `0`, `0`; at a middle block (case B) they continue from
  what the point before left; at the last block (case C) the output block receives the quotient of the new
  numerator by the new denominator.
-/
import proofs.«422484_j60060822667814_3_alg».proof.Proof.KSpec
import proofs.«422484_j60060822667814_3_alg».proof.Proof.PayHead0
import proofs.«422484_j60060822667814_3_alg».proof.Proof.PayHead1
import proofs.«422484_j60060822667814_3_alg».proof.Proof.PayAcc
import proofs.«422484_j60060822667814_3_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen Cert.KernelIdeal.KSpec Cert.KernelIdeal.Pay Cert.Attn Idealize.ShloMosaic.ValueIdx

variable (c : Dev nD) (i : grid0.Coords) (arg3 : Memref sig .tc .vmem S1x2048x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x2048x2048 .i32) (harg6 : arg6.IsWhole) (arg7 : Memref sig .tc .vmem S1x2048x128 .f32) (harg7 : arg7.IsWhole) (arg8 : Memref sig .tc .vmem S2048x128 .f32) (harg8 : arg8.IsWhole) (arg9 : Memref sig .tc .vmem S2048x2 .f32) (harg9 : arg9.IsWhole) (arg10 : Memref sig .tc .vmem S2048x2 .f32) (harg10 : arg10.IsWhole)

/-! ## Reading a two-column buffer written column by column -/

theorem hz2 : (![0, 0] : Fin 2 → ℕ) = fun _ => 0 := by
  funext a; fin_cases a <;> rfl
theorem hz3 : (![0, 0, 0] : Fin 3 → ℕ) = fun _ => 0 := by
  funext a; fin_cases a <;> rfl

/-- Column 1 of a [2048, 2] buffer whose last store was column 1. -/
theorem canon_col1 (inb1) (p1 : Vec Ideal S2048x1 .f32) (L : List (View.Piece (Elt Ideal) S2048x2 .f32)) (r : Fin 2048) :
    View.canon (Val := Elt Ideal) ((⟨Rect.unit (s := S2048x2) ![0, 1] ![2048, 1] inb1, p1⟩ : View.Piece (Elt Ideal) S2048x2 .f32) :: L) (ix2 r (1 : Fin 2))
      = p1 (ix2 r (0 : Fin 1)) := by
  have e : (ix2 r (1 : Fin 2) : S2048x2.Idx) = (Rect.unit (s := S2048x2) ![0, 1] ![2048, 1] inb1).emb (ix2 r (0 : Fin 1)) := by
    funext a; fin_cases a <;> exact Fin.ext (by simp)
  rw [e]; exact View.canon_cons_emb (Rect.unit (s := S2048x2) ![0, 1] ![2048, 1] inb1) p1 L _

/-- Column 0 of a [2048, 2] buffer whose last two stores were column 1, then (before it) column 0. -/
theorem canon_col0 (inb1 inb0) (p1 p0 : Vec Ideal S2048x1 .f32) (L : List (View.Piece (Elt Ideal) S2048x2 .f32)) (r : Fin 2048) :
    View.canon (Val := Elt Ideal) ((⟨Rect.unit (s := S2048x2) ![0, 1] ![2048, 1] inb1, p1⟩ : View.Piece (Elt Ideal) S2048x2 .f32)
        :: (⟨Rect.unit (s := S2048x2) ![0, 0] ![2048, 1] inb0, p0⟩ : View.Piece (Elt Ideal) S2048x2 .f32) :: L) (ix2 r (0 : Fin 2))
      = p0 (ix2 r (0 : Fin 1)) := by
  have e : (ix2 r (0 : Fin 2) : S2048x2.Idx) = (Rect.unit (s := S2048x2) ![0, 0] ![2048, 1] inb0).emb (ix2 r (0 : Fin 1)) := by
    funext a; fin_cases a <;> exact Fin.ext (by simp)
  rw [View.canon_cons_of_not_mem]
  · rw [e]; exact View.canon_cons_emb (Rect.unit (s := S2048x2) ![0, 0] ![2048, 1] inb0) p0 L _
  · intro h
    have h' : (ix2 r (0 : Fin 2) : S2048x2.Idx) ∈ (Rect.unit (s := S2048x2) ![0, 1] ![2048, 1] inb1).set := h
    have := (Rect.mem_set_unit.mp h') 1
    simp at this

/-- A load of the whole buffer, after stores over junk, reads what the stores left. -/
theorem readCov_whole_canon {sig' : RefSig} {κ : Kind} {sp : Space} {S : Shape} {e : EltTy}
    (v : View sig' κ sp S e) {off : Fin S.rank → ℕ} (h : off = fun _ => 0)
    (inb : ∀ a, off a + S.size a ≤ S.size a) (L : List (View.Piece (Elt Ideal) S e)) :
    v.readCov L (Rect.unit off S.size inb).toLoadRect = View.canon L := by
  subst h
  rw [View.readCov_eq_canon']
  funext y
  show View.canon L ((Rect.whole S).emb y) = _
  rw [Rect.emb_whole_apply]

theorem pay6_at (y : S2048x128.Idx) : k0_pay6 (F := Ideal) y = (0 : EReal) := congrFun pay6_eq y
theorem pay7_at (y : S2048x2.Idx) : k0_pay7 (F := Ideal) y = (⊥ : EReal) := congrFun pay7_eq y
theorem pay8_at (y : S2048x2.Idx) : k0_pay8 (F := Ideal) y = (0 : EReal) := congrFun pay8_eq y

/-! ## Case A: the first key block of a group -/

theorem sA1 (hc0 : cond0_0 i) (hc1 : ¬cond0_1 i) (x0 : Vec Ideal S1x2048x128 .f32) (x1 : Vec Ideal S1x512x128 .f32) (x2 : Vec Ideal S1x512x128 .f32) (x3 : Vec Ideal S1x2048x2048 .i32) (r : Fin 2048) (j : Fin 2) :
    sout0_A_1 (F := Ideal) c i arg3 harg3 arg4 harg4 arg5 harg5 arg6 harg6 arg7 harg7 arg8 harg8 arg9 harg9 arg10 harg10 hc0 hc1 x0 x1 x2 x3 (ix2 r j)
      = mNew ⊥ (blkScore (maskBlk i x3) x0 x1 j r) := by
  unfold sout0_A_1
  rw [View.read_writes_eq_canon _ _ _ (scover0_A_1 (F := Ideal) c i arg3 harg3 arg4 harg4 arg5 harg5 arg6 harg6 arg7 harg7 arg8 harg8 arg9 harg9 arg10 harg10 hc0 hc1 x0 x1 x2 x3)]
  unfold kernelRun0_A; dsimp only; sl_unfold_words
  simp only [View.readAt_eq_ld, harg3.read_unread, harg4.read_unread, harg5.read_unread, harg6.read_unread,
    View.ld_unit_zero (S := S1x2048x128) hz3, View.ld_unit_zero (S := S1x512x128) hz3,
    View.readCov_unit_zero (S := S2048x2) _ hz2, View.readCov_unit_zero (S := S2048x128) _ hz2]
  match j with
  | ⟨0, _⟩ =>
    refine ((canon_col0 _ _ _ _ _ r).trans (m0_apply (maskBlk i x3) x0 x1 (k0_pay7 (F := Ideal)) r)).trans ?_
    exact congrArg (fun m => mNew m (blkScore (maskBlk i x3) x0 x1 0 r)) (pay7_at _)
  | ⟨1, _⟩ =>
    refine ((canon_col1 _ _ _ r).trans (m1_apply (maskBlk i x3) x0 x1 (k0_pay7 (F := Ideal)) r)).trans ?_
    exact congrArg (fun m => mNew m (blkScore (maskBlk i x3) x0 x1 1 r)) (pay7_at _)

theorem sA2 (hc0 : cond0_0 i) (hc1 : ¬cond0_1 i) (x0 : Vec Ideal S1x2048x128 .f32) (x1 : Vec Ideal S1x512x128 .f32) (x2 : Vec Ideal S1x512x128 .f32) (x3 : Vec Ideal S1x2048x2048 .i32) (r : Fin 2048) (j : Fin 2) :
    sout0_A_2 (F := Ideal) c i arg3 harg3 arg4 harg4 arg5 harg5 arg6 harg6 arg7 harg7 arg8 harg8 arg9 harg9 arg10 harg10 hc0 hc1 x0 x1 x2 x3 (ix2 r j)
      = lNew ⊥ 0 (blkScore (maskBlk i x3) x0 x1 j r) := by
  unfold sout0_A_2
  rw [View.read_writes_eq_canon _ _ _ (scover0_A_2 (F := Ideal) c i arg3 harg3 arg4 harg4 arg5 harg5 arg6 harg6 arg7 harg7 arg8 harg8 arg9 harg9 arg10 harg10 hc0 hc1 x0 x1 x2 x3)]
  unfold kernelRun0_A; dsimp only; sl_unfold_words
  simp only [View.readAt_eq_ld, harg3.read_unread, harg4.read_unread, harg5.read_unread, harg6.read_unread,
    View.ld_unit_zero (S := S1x2048x128) hz3, View.ld_unit_zero (S := S1x512x128) hz3,
    View.readCov_unit_zero (S := S2048x2) _ hz2, View.readCov_unit_zero (S := S2048x128) _ hz2]
  match j with
  | ⟨0, _⟩ =>
    refine ((canon_col0 _ _ _ _ _ r).trans (l0_apply (maskBlk i x3) x0 x1 (k0_pay7 (F := Ideal)) (k0_pay8 (F := Ideal)) r)).trans ?_
    exact congrArg₂ (fun m l => lNew m l (blkScore (maskBlk i x3) x0 x1 0 r)) (pay7_at _) (pay8_at _)
  | ⟨1, _⟩ =>
    refine ((canon_col1 _ _ _ r).trans (l1_apply (maskBlk i x3) x0 x1 (k0_pay7 (F := Ideal)) (k0_pay8 (F := Ideal)) r)).trans ?_
    exact congrArg₂ (fun m l => lNew m l (blkScore (maskBlk i x3) x0 x1 1 r)) (pay7_at _) (pay8_at _)

theorem sA0 (hc0 : cond0_0 i) (hc1 : ¬cond0_1 i) (x0 : Vec Ideal S1x2048x128 .f32) (x1 : Vec Ideal S1x512x128 .f32) (x2 : Vec Ideal S1x512x128 .f32) (x3 : Vec Ideal S1x2048x2048 .i32) (r : Fin 2048) (j : Fin 2) (d : Fin 64) :
    sout0_A_0 (F := Ideal) c i arg3 harg3 arg4 harg4 arg5 harg5 arg6 harg6 arg7 harg7 arg8 harg8 arg9 harg9 arg10 harg10 hc0 hc1 x0 x1 x2 x3 (ix2 r (col j d))
      = aNew ⊥ 0 (blkScore (maskBlk i x3) x0 x1 j r) (fun kk => x2 (ix3 0 kk (col j d))) := by
  unfold sout0_A_0
  rw [View.read_writes_eq_canon _ _ _ (scover0_A_0 (F := Ideal) c i arg3 harg3 arg4 harg4 arg5 harg5 arg6 harg6 arg7 harg7 arg8 harg8 arg9 harg9 arg10 harg10 hc0 hc1 x0 x1 x2 x3)]
  unfold kernelRun0_A; dsimp only; sl_unfold_words
  rw [View.canon_cons_unit_zero (S := S2048x128) hz2]
  simp only [View.readAt_eq_ld, harg3.read_unread, harg4.read_unread, harg5.read_unread, harg6.read_unread,
    View.ld_unit_zero (S := S1x2048x128) hz3, View.ld_unit_zero (S := S1x512x128) hz3,
    View.readCov_unit_zero (S := S2048x2) _ hz2, View.readCov_unit_zero (S := S2048x128) _ hz2]
  refine (acc_apply (maskBlk i x3) x0 x1 x2 (k0_pay6 (F := Ideal)) (k0_pay7 (F := Ideal)) r j d).trans ?_
  rw [pay7_at, pay6_at]

/-! ## Case B: a middle key block -/

theorem sB1 (hc0 : ¬cond0_0 i) (hc1 : ¬cond0_1 i) (x0 : Vec Ideal S1x2048x128 .f32) (x1 : Vec Ideal S1x512x128 .f32) (x2 : Vec Ideal S1x512x128 .f32) (x3 : Vec Ideal S1x2048x2048 .i32) (xs0 : Vec Ideal S2048x128 .f32) (xs1 : Vec Ideal S2048x2 .f32) (xs2 : Vec Ideal S2048x2 .f32) (r : Fin 2048) (j : Fin 2) :
    sout0_B_1 (F := Ideal) c i arg3 harg3 arg4 harg4 arg5 harg5 arg6 harg6 arg7 harg7 arg8 harg8 arg9 harg9 arg10 harg10 hc0 hc1 x0 x1 x2 x3 xs0 xs1 xs2 (ix2 r j)
      = mNew (xs1 (ix2 r j)) (blkScore (maskBlk i x3) x0 x1 j r) := by
  unfold sout0_B_1
  rw [View.read_writes_eq_canon _ _ _ (scover0_B_1 (F := Ideal) c i arg3 harg3 arg4 harg4 arg5 harg5 arg6 harg6 arg7 harg7 arg8 harg8 arg9 harg9 arg10 harg10 hc0 hc1 x0 x1 x2 x3 xs0 xs1 xs2)]
  unfold kernelRun0_B; dsimp only; sl_unfold_words
  simp only [View.readAt_eq_ld, harg3.read_unread, harg4.read_unread, harg5.read_unread, harg6.read_unread,
    harg8.read_unread, harg9.read_unread, harg10.read_unread,
    View.ld_unit_zero (S := S1x2048x128) hz3, View.ld_unit_zero (S := S1x512x128) hz3,
    View.ld_unit_zero (S := S2048x2) hz2, View.ld_unit_zero (S := S2048x128) hz2]
  match j with
  | ⟨0, _⟩ => exact (canon_col0 _ _ _ _ _ r).trans (m0_apply (maskBlk i x3) x0 x1 xs1 r)
  | ⟨1, _⟩ => exact (canon_col1 _ _ _ r).trans (m1_apply (maskBlk i x3) x0 x1 xs1 r)

theorem sB2 (hc0 : ¬cond0_0 i) (hc1 : ¬cond0_1 i) (x0 : Vec Ideal S1x2048x128 .f32) (x1 : Vec Ideal S1x512x128 .f32) (x2 : Vec Ideal S1x512x128 .f32) (x3 : Vec Ideal S1x2048x2048 .i32) (xs0 : Vec Ideal S2048x128 .f32) (xs1 : Vec Ideal S2048x2 .f32) (xs2 : Vec Ideal S2048x2 .f32) (r : Fin 2048) (j : Fin 2) :
    sout0_B_2 (F := Ideal) c i arg3 harg3 arg4 harg4 arg5 harg5 arg6 harg6 arg7 harg7 arg8 harg8 arg9 harg9 arg10 harg10 hc0 hc1 x0 x1 x2 x3 xs0 xs1 xs2 (ix2 r j)
      = lNew (xs1 (ix2 r j)) (xs2 (ix2 r j)) (blkScore (maskBlk i x3) x0 x1 j r) := by
  unfold sout0_B_2
  rw [View.read_writes_eq_canon _ _ _ (scover0_B_2 (F := Ideal) c i arg3 harg3 arg4 harg4 arg5 harg5 arg6 harg6 arg7 harg7 arg8 harg8 arg9 harg9 arg10 harg10 hc0 hc1 x0 x1 x2 x3 xs0 xs1 xs2)]
  unfold kernelRun0_B; dsimp only; sl_unfold_words
  simp only [View.readAt_eq_ld, harg3.read_unread, harg4.read_unread, harg5.read_unread, harg6.read_unread,
    harg8.read_unread, harg9.read_unread, harg10.read_unread,
    View.ld_unit_zero (S := S1x2048x128) hz3, View.ld_unit_zero (S := S1x512x128) hz3,
    View.ld_unit_zero (S := S2048x2) hz2, View.ld_unit_zero (S := S2048x128) hz2]
  match j with
  | ⟨0, _⟩ => exact (canon_col0 _ _ _ _ _ r).trans (l0_apply (maskBlk i x3) x0 x1 xs1 xs2 r)
  | ⟨1, _⟩ => exact (canon_col1 _ _ _ r).trans (l1_apply (maskBlk i x3) x0 x1 xs1 xs2 r)

theorem sB0 (hc0 : ¬cond0_0 i) (hc1 : ¬cond0_1 i) (x0 : Vec Ideal S1x2048x128 .f32) (x1 : Vec Ideal S1x512x128 .f32) (x2 : Vec Ideal S1x512x128 .f32) (x3 : Vec Ideal S1x2048x2048 .i32) (xs0 : Vec Ideal S2048x128 .f32) (xs1 : Vec Ideal S2048x2 .f32) (xs2 : Vec Ideal S2048x2 .f32) (r : Fin 2048) (j : Fin 2) (d : Fin 64) :
    sout0_B_0 (F := Ideal) c i arg3 harg3 arg4 harg4 arg5 harg5 arg6 harg6 arg7 harg7 arg8 harg8 arg9 harg9 arg10 harg10 hc0 hc1 x0 x1 x2 x3 xs0 xs1 xs2 (ix2 r (col j d))
      = aNew (xs1 (ix2 r j)) (xs0 (ix2 r (col j d))) (blkScore (maskBlk i x3) x0 x1 j r) (fun kk => x2 (ix3 0 kk (col j d))) := by
  unfold sout0_B_0
  rw [View.read_writes_eq_canon _ _ _ (scover0_B_0 (F := Ideal) c i arg3 harg3 arg4 harg4 arg5 harg5 arg6 harg6 arg7 harg7 arg8 harg8 arg9 harg9 arg10 harg10 hc0 hc1 x0 x1 x2 x3 xs0 xs1 xs2)]
  unfold kernelRun0_B; dsimp only; sl_unfold_words
  rw [View.canon_unit_zero (S := S2048x128) hz2]
  simp only [View.readAt_eq_ld, harg3.read_unread, harg4.read_unread, harg5.read_unread, harg6.read_unread,
    harg8.read_unread, harg9.read_unread, harg10.read_unread,
    View.ld_unit_zero (S := S1x2048x128) hz3, View.ld_unit_zero (S := S1x512x128) hz3,
    View.ld_unit_zero (S := S2048x2) hz2, View.ld_unit_zero (S := S2048x128) hz2]
  exact acc_apply (maskBlk i x3) x0 x1 x2 xs0 xs1 r j d

/-! ## Case C: the last key block, which writes the output block -/

theorem oC4 (hc0 : ¬cond0_0 i) (hc1 : cond0_1 i) (x0 : Vec Ideal S1x2048x128 .f32) (x1 : Vec Ideal S1x512x128 .f32) (x2 : Vec Ideal S1x512x128 .f32) (x3 : Vec Ideal S1x2048x2048 .i32) (xs0 : Vec Ideal S2048x128 .f32) (xs1 : Vec Ideal S2048x2 .f32) (xs2 : Vec Ideal S2048x2 .f32) (r : Fin 2048) (j : Fin 2) (d : Fin 64) :
    out0_C_4 (F := Ideal) c i arg3 harg3 arg4 harg4 arg5 harg5 arg6 harg6 arg7 harg7 arg8 harg8 arg9 harg9 arg10 harg10 hc0 hc1 x0 x1 x2 x3 xs0 xs1 xs2 (ix3 0 r (col j d))
      = Ideal.div
          (aNew (xs1 (ix2 r j)) (xs0 (ix2 r (col j d))) (blkScore (maskBlk i x3) x0 x1 j r) (fun kk => x2 (ix3 0 kk (col j d))))
          (lNew (xs1 (ix2 r j)) (xs2 (ix2 r j)) (blkScore (maskBlk i x3) x0 x1 j r)) := by
  unfold out0_C_4
  rw [View.read_writes_eq_canon _ _ _ (cover0_C_4 (F := Ideal) c i arg3 harg3 arg4 harg4 arg5 harg5 arg6 harg6 arg7 harg7 arg8 harg8 arg9 harg9 arg10 harg10 hc0 hc1 x0 x1 x2 x3 xs0 xs1 xs2)]
  unfold kernelRun0_C; dsimp only; sl_unfold_words
  rw [View.canon_unit_zero (S := S1x2048x128) hz3]
  refine (out_apply _ _ r j d).trans ?_
  rw [View.readCov_unit_zero (S := S2048x128) _ hz2, readCov_whole_canon _ hz2]
  simp only [View.readAt_eq_ld, harg3.read_unread, harg4.read_unread, harg5.read_unread, harg6.read_unread,
    harg8.read_unread, harg9.read_unread, harg10.read_unread,
    View.ld_unit_zero (S := S1x2048x128) hz3, View.ld_unit_zero (S := S1x512x128) hz3,
    View.ld_unit_zero (S := S2048x2) hz2, View.ld_unit_zero (S := S2048x128) hz2]
  refine congrArg₂ Ideal.div (acc_apply (maskBlk i x3) x0 x1 x2 xs0 xs1 r j d) ?_
  match j with
  | ⟨0, _⟩ => exact (canon_col0 _ _ _ _ _ r).trans (l0_apply (maskBlk i x3) x0 x1 xs1 xs2 r)
  | ⟨1, _⟩ => exact (canon_col1 _ _ _ r).trans (l1_apply (maskBlk i x3) x0 x1 xs1 xs2 r)

end Cert.KernelIdeal.Pieces

end
-- ==== Proof.KernelGroup.lean ====
/-
  The four grid points of one (batch, head pair) group, composed: the point of the last key block writes, at lane
  `64 j + d` of row `r`, the online recurrence of the row over the group's four key blocks.
-/
import proofs.«422484_j60060822667814_3_alg».proof.Proof.KSpec
import proofs.«422484_j60060822667814_3_alg».proof.Proof.Pieces
import proofs.«422484_j60060822667814_3_alg».proof.Proof.Gen.KernelIdeal.Frame
import Idealize.ShloMosaic.Lib.Pipeline.Value

set_option maxRecDepth 16384

noncomputable section

namespace Cert.KernelIdeal.Group

open Idealize.ShloMosaic Idealize.ShloMosaic.TcCoe Idealize.SL.Sem
open Cert.KernelIdeal Cert.KernelIdeal.Gen Cert.KernelIdeal.KSpec Cert.KernelIdeal.Pieces Cert.Attn Idealize.ShloMosaic.ValueIdx

variable (m : (ℓ : Loc nD τ sig) → Buf (Elt Ideal) ℓ)

/-- The query block staged at point `t`. -/
abbrev qblk (c : Dev nD) (t : Fin cfg0.N) : Vec Ideal S1x2048x128 .f32 := iblk m c 0 t
/-- The key block staged at point `t`. -/
abbrev kblk (c : Dev nD) (t : Fin cfg0.N) : Vec Ideal S1x512x128 .f32 := iblk m c 1 t
/-- The value block staged at point `t`. -/
abbrev vblk (c : Dev nD) (t : Fin cfg0.N) : Vec Ideal S1x512x128 .f32 := iblk m c 2 t
/-- The mask block staged at point `t`. -/
abbrev wblk (c : Dev nD) (t : Fin cfg0.N) : Vec Ideal S1x2048x2048 .i32 := iblk m c 3 t

/-- The point of key block `k` in the group whose last point is `t`. -/
def pt (t : Fin cfg0.N) (k : Fin 4) : Fin cfg0.N :=
  ⟨t.val - 3 + k.val, by have := t.isLt; have := k.isLt; have hN : cfg0.N = 128 := N_0; omega⟩

/-- Scores of row `r` of head `j` against the 512 keys of the key block staged at point `p`. -/
abbrev sAt (c : Dev nD) (p : Fin cfg0.N) (j : Fin 2) (r : Fin 2048) : Fin 512 → EReal :=
  blkScore (maskBlk (grid0.coords p) (wblk m c p)) (qblk m c p) (kblk m c p) j r
/-- Lane `64 j + d` of the value block staged at point `p`, key by key. -/
abbrev vAt (c : Dev nD) (p : Fin cfg0.N) (j : Fin 2) (d : Fin 64) : Fin 512 → EReal :=
  fun kk => vblk m c p (ix3 0 kk (col j d))

/-- The contents after a point depend on the point's number only, not on the proof of its bound. -/
theorem outs_congr (c : Dev nD) (n n' : ℕ) (hn : n < cfg0.N) (hn' : n' < cfg0.N) (e : n = n') :
    outsAt0 m c n hn = outsAt0 m c n' hn' := by
  subst e; rfl

/-! ## One point of each kind -/

/-- A group's first point: the running maximum starts from bottom. -/
theorem maxA (c : Dev nD) (p : Fin cfg0.N) (h0 : p.val % 4 = 0) (r : Fin 2048) (j : Fin 2) :
    (outsAt0 m c p.val p.isLt).2.2.1 (ix2 r j) = mNew ⊥ (sAt m c p j r) := by
  have h1 : ¬p.val % 4 = 3 := by omega
  rw [outsAt0_A m c p h0 h1]; dsimp only
  exact sA1 c (grid0.coords p) (ms0_0 p) (hs0_0 p) (ms0_1 p) (hs0_1 p) (ms0_2 p) (hs0_2 p) (ms0_3 p) (hs0_3 p) (ms0_4 p) (hs0_4 p) scM0_0 (Memref.isWhole_whole _) scM0_1 (Memref.isWhole_whole _) scM0_2 (Memref.isWhole_whole _) ((hcond0_0 p).mpr h0) (fun h => h1 ((hcond0_1 p).mp h)) (qblk m c p) (kblk m c p) (vblk m c p) (wblk m c p) r j

/-- A group's first point: the running denominator starts from zero. -/
theorem denA (c : Dev nD) (p : Fin cfg0.N) (h0 : p.val % 4 = 0) (r : Fin 2048) (j : Fin 2) :
    (outsAt0 m c p.val p.isLt).2.2.2 (ix2 r j) = lNew ⊥ 0 (sAt m c p j r) := by
  have h1 : ¬p.val % 4 = 3 := by omega
  rw [outsAt0_A m c p h0 h1]; dsimp only
  exact sA2 c (grid0.coords p) (ms0_0 p) (hs0_0 p) (ms0_1 p) (hs0_1 p) (ms0_2 p) (hs0_2 p) (ms0_3 p) (hs0_3 p) (ms0_4 p) (hs0_4 p) scM0_0 (Memref.isWhole_whole _) scM0_1 (Memref.isWhole_whole _) scM0_2 (Memref.isWhole_whole _) ((hcond0_0 p).mpr h0) (fun h => h1 ((hcond0_1 p).mp h)) (qblk m c p) (kblk m c p) (vblk m c p) (wblk m c p) r j

/-- A group's first point: the running numerator starts from zero. -/
theorem numA (c : Dev nD) (p : Fin cfg0.N) (h0 : p.val % 4 = 0) (r : Fin 2048) (j : Fin 2) (d : Fin 64) :
    (outsAt0 m c p.val p.isLt).2.1 (ix2 r (col j d)) = aNew ⊥ 0 (sAt m c p j r) (vAt m c p j d) := by
  have h1 : ¬p.val % 4 = 3 := by omega
  rw [outsAt0_A m c p h0 h1]; dsimp only
  exact sA0 c (grid0.coords p) (ms0_0 p) (hs0_0 p) (ms0_1 p) (hs0_1 p) (ms0_2 p) (hs0_2 p) (ms0_3 p) (hs0_3 p) (ms0_4 p) (hs0_4 p) scM0_0 (Memref.isWhole_whole _) scM0_1 (Memref.isWhole_whole _) scM0_2 (Memref.isWhole_whole _) ((hcond0_0 p).mpr h0) (fun h => h1 ((hcond0_1 p).mp h)) (qblk m c p) (kblk m c p) (vblk m c p) (wblk m c p) r j d

/-- A middle point `q` after point `p`: the maximum steps from what `p` left. -/
theorem maxB (c : Dev nD) (p q : Fin cfg0.N) (hpq : p.val + 1 = q.val) (h0 : ¬q.val % 4 = 0) (h1 : ¬q.val % 4 = 3)
    (r : Fin 2048) (j : Fin 2) :
    (outsAt0 m c q.val q.isLt).2.2.1 (ix2 r j)
      = mNew ((outsAt0 m c p.val p.isLt).2.2.1 (ix2 r j)) (sAt m c q j r) := by
  rw [outsAt0_B m c q h0 h1]; dsimp only
  rw [outs_congr m c (q.val - 1) p.val _ p.isLt (by omega)]
  exact sB1 c (grid0.coords q) (ms0_0 q) (hs0_0 q) (ms0_1 q) (hs0_1 q) (ms0_2 q) (hs0_2 q) (ms0_3 q) (hs0_3 q) (ms0_4 q) (hs0_4 q) scM0_0 (Memref.isWhole_whole _) scM0_1 (Memref.isWhole_whole _) scM0_2 (Memref.isWhole_whole _) (fun h => h0 ((hcond0_0 q).mp h)) (fun h => h1 ((hcond0_1 q).mp h)) (qblk m c q) (kblk m c q) (vblk m c q) (wblk m c q) (outsAt0 m c p.val p.isLt).2.1 (outsAt0 m c p.val p.isLt).2.2.1 (outsAt0 m c p.val p.isLt).2.2.2 r j

/-- A middle point `q` after point `p`: the denominator steps from what `p` left. -/
theorem denB (c : Dev nD) (p q : Fin cfg0.N) (hpq : p.val + 1 = q.val) (h0 : ¬q.val % 4 = 0) (h1 : ¬q.val % 4 = 3)
    (r : Fin 2048) (j : Fin 2) :
    (outsAt0 m c q.val q.isLt).2.2.2 (ix2 r j)
      = lNew ((outsAt0 m c p.val p.isLt).2.2.1 (ix2 r j)) ((outsAt0 m c p.val p.isLt).2.2.2 (ix2 r j)) (sAt m c q j r) := by
  rw [outsAt0_B m c q h0 h1]; dsimp only
  rw [outs_congr m c (q.val - 1) p.val _ p.isLt (by omega)]
  exact sB2 c (grid0.coords q) (ms0_0 q) (hs0_0 q) (ms0_1 q) (hs0_1 q) (ms0_2 q) (hs0_2 q) (ms0_3 q) (hs0_3 q) (ms0_4 q) (hs0_4 q) scM0_0 (Memref.isWhole_whole _) scM0_1 (Memref.isWhole_whole _) scM0_2 (Memref.isWhole_whole _) (fun h => h0 ((hcond0_0 q).mp h)) (fun h => h1 ((hcond0_1 q).mp h)) (qblk m c q) (kblk m c q) (vblk m c q) (wblk m c q) (outsAt0 m c p.val p.isLt).2.1 (outsAt0 m c p.val p.isLt).2.2.1 (outsAt0 m c p.val p.isLt).2.2.2 r j

/-- A middle point `q` after point `p`: the numerator steps from what `p` left. -/
theorem numB (c : Dev nD) (p q : Fin cfg0.N) (hpq : p.val + 1 = q.val) (h0 : ¬q.val % 4 = 0) (h1 : ¬q.val % 4 = 3)
    (r : Fin 2048) (j : Fin 2) (d : Fin 64) :
    (outsAt0 m c q.val q.isLt).2.1 (ix2 r (col j d))
      = aNew ((outsAt0 m c p.val p.isLt).2.2.1 (ix2 r j)) ((outsAt0 m c p.val p.isLt).2.1 (ix2 r (col j d)))
          (sAt m c q j r) (vAt m c q j d) := by
  rw [outsAt0_B m c q h0 h1]; dsimp only
  rw [outs_congr m c (q.val - 1) p.val _ p.isLt (by omega)]
  exact sB0 c (grid0.coords q) (ms0_0 q) (hs0_0 q) (ms0_1 q) (hs0_1 q) (ms0_2 q) (hs0_2 q) (ms0_3 q) (hs0_3 q) (ms0_4 q) (hs0_4 q) scM0_0 (Memref.isWhole_whole _) scM0_1 (Memref.isWhole_whole _) scM0_2 (Memref.isWhole_whole _) (fun h => h0 ((hcond0_0 q).mp h)) (fun h => h1 ((hcond0_1 q).mp h)) (qblk m c q) (kblk m c q) (vblk m c q) (wblk m c q) (outsAt0 m c p.val p.isLt).2.1 (outsAt0 m c p.val p.isLt).2.2.1 (outsAt0 m c p.val p.isLt).2.2.2 r j d

/-- A group's last point `q` after point `p`: the output is the stepped numerator over the stepped denominator. -/
theorem outC (c : Dev nD) (p q : Fin cfg0.N) (hpq : p.val + 1 = q.val) (h0 : ¬q.val % 4 = 0) (h1 : q.val % 4 = 3)
    (r : Fin 2048) (j : Fin 2) (d : Fin 64) :
    (outsAt0 m c q.val q.isLt).1 (ix3 0 r (col j d))
      = Ideal.div
          (aNew ((outsAt0 m c p.val p.isLt).2.2.1 (ix2 r j)) ((outsAt0 m c p.val p.isLt).2.1 (ix2 r (col j d)))
            (sAt m c q j r) (vAt m c q j d))
          (lNew ((outsAt0 m c p.val p.isLt).2.2.1 (ix2 r j)) ((outsAt0 m c p.val p.isLt).2.2.2 (ix2 r j)) (sAt m c q j r)) := by
  rw [outsAt0_C m c q h0 h1]; dsimp only
  rw [outs_congr m c (q.val - 1) p.val _ p.isLt (by omega)]
  exact oC4 c (grid0.coords q) (ms0_0 q) (hs0_0 q) (ms0_1 q) (hs0_1 q) (ms0_2 q) (hs0_2 q) (ms0_3 q) (hs0_3 q) (ms0_4 q) (hs0_4 q) scM0_0 (Memref.isWhole_whole _) scM0_1 (Memref.isWhole_whole _) scM0_2 (Memref.isWhole_whole _) (fun h => h0 ((hcond0_0 q).mp h)) ((hcond0_1 q).mpr h1) (qblk m c q) (kblk m c q) (vblk m c q) (wblk m c q) (outsAt0 m c p.val p.isLt).2.1 (outsAt0 m c p.val p.isLt).2.2.1 (outsAt0 m c p.val p.isLt).2.2.2 r j d

/-! ## The four points of a group -/

theorem pt0_val (t : Fin cfg0.N) : (pt t 0).val = t.val - 3 := rfl
theorem pt1_val (t : Fin cfg0.N) : (pt t 1).val = t.val - 3 + 1 := rfl
theorem pt2_val (t : Fin cfg0.N) : (pt t 2).val = t.val - 3 + 2 := rfl
theorem pt3_val (t : Fin cfg0.N) : (pt t 3).val = t.val - 3 + 3 := rfl

/-- The group's scores of row `r`, head `j`: block `k` is staged at the group's point `k`. -/
abbrev sGrp (c : Dev nD) (t : Fin cfg0.N) (j : Fin 2) (r : Fin 2048) : Fin 4 → Fin 512 → EReal :=
  fun k kk => blkScore (maskBlk (grid0.coords (pt t k)) (wblk m c (pt t k))) (qblk m c (pt t k)) (kblk m c (pt t k)) j r kk
/-- The group's value entries at lane `64 j + d`. -/
abbrev vGrp (c : Dev nD) (t : Fin cfg0.N) (j : Fin 2) (d : Fin 64) : Fin 4 → Fin 512 → EReal :=
  fun k kk => vblk m c (pt t k) (ix3 0 kk (col j d))

section Group
variable (c : Dev nD) (t : Fin cfg0.N) (h3 : t.val % 4 = 3) (r : Fin 2048) (j : Fin 2)
include h3

theorem grp_m1 : (outsAt0 m c (pt t 0).val (pt t 0).isLt).2.2.1 (ix2 r j) = m1 (sGrp m c t j r) :=
  maxA m c (pt t 0) (by have := pt0_val t; omega) r j

theorem grp_l1 : (outsAt0 m c (pt t 0).val (pt t 0).isLt).2.2.2 (ix2 r j) = l1 (sGrp m c t j r) :=
  denA m c (pt t 0) (by have := pt0_val t; omega) r j

theorem grp_a1 (d : Fin 64) :
    (outsAt0 m c (pt t 0).val (pt t 0).isLt).2.1 (ix2 r (col j d)) = a1 (sGrp m c t j r) (vGrp m c t j d) :=
  numA m c (pt t 0) (by have := pt0_val t; omega) r j d

theorem grp_m2 : (outsAt0 m c (pt t 1).val (pt t 1).isLt).2.2.1 (ix2 r j) = m2 (sGrp m c t j r) := by
  rw [maxB m c (pt t 0) (pt t 1) (by have := pt0_val t; have := pt1_val t; omega) (by have := pt1_val t; omega)
    (by have := pt1_val t; omega) r j, grp_m1 m c t h3 r j]
  rfl

theorem grp_l2 : (outsAt0 m c (pt t 1).val (pt t 1).isLt).2.2.2 (ix2 r j) = l2 (sGrp m c t j r) := by
  rw [denB m c (pt t 0) (pt t 1) (by have := pt0_val t; have := pt1_val t; omega) (by have := pt1_val t; omega)
    (by have := pt1_val t; omega) r j, grp_m1 m c t h3 r j, grp_l1 m c t h3 r j]
  rfl

theorem grp_a2 (d : Fin 64) :
    (outsAt0 m c (pt t 1).val (pt t 1).isLt).2.1 (ix2 r (col j d)) = a2 (sGrp m c t j r) (vGrp m c t j d) := by
  rw [numB m c (pt t 0) (pt t 1) (by have := pt0_val t; have := pt1_val t; omega) (by have := pt1_val t; omega)
    (by have := pt1_val t; omega) r j d, grp_m1 m c t h3 r j, grp_a1 m c t h3 r j d]
  rfl

theorem grp_m3 : (outsAt0 m c (pt t 2).val (pt t 2).isLt).2.2.1 (ix2 r j) = m3 (sGrp m c t j r) := by
  rw [maxB m c (pt t 1) (pt t 2) (by have := pt1_val t; have := pt2_val t; omega) (by have := pt2_val t; omega)
    (by have := pt2_val t; omega) r j, grp_m2 m c t h3 r j]
  rfl

theorem grp_l3 : (outsAt0 m c (pt t 2).val (pt t 2).isLt).2.2.2 (ix2 r j) = l3 (sGrp m c t j r) := by
  rw [denB m c (pt t 1) (pt t 2) (by have := pt1_val t; have := pt2_val t; omega) (by have := pt2_val t; omega)
    (by have := pt2_val t; omega) r j, grp_m2 m c t h3 r j, grp_l2 m c t h3 r j]
  rfl

theorem grp_a3 (d : Fin 64) :
    (outsAt0 m c (pt t 2).val (pt t 2).isLt).2.1 (ix2 r (col j d)) = a3 (sGrp m c t j r) (vGrp m c t j d) := by
  rw [numB m c (pt t 1) (pt t 2) (by have := pt1_val t; have := pt2_val t; omega) (by have := pt2_val t; omega)
    (by have := pt2_val t; omega) r j d, grp_m2 m c t h3 r j, grp_a2 m c t h3 r j d]
  rfl

theorem grp_out (d : Fin 64) :
    (outsAt0 m c (pt t 3).val (pt t 3).isLt).1 (ix3 0 r (col j d)) = kernelRow (sGrp m c t j r) (vGrp m c t j d) := by
  rw [outC m c (pt t 2) (pt t 3) (by have := pt2_val t; have := pt3_val t; omega) (by have := pt3_val t; omega)
    (by have := pt3_val t; omega) r j d, grp_m3 m c t h3 r j, grp_l3 m c t h3 r j, grp_a3 m c t h3 r j d]
  rfl

end Group

/-- What the last point of a group leaves in the output block. -/
theorem out_group (c : Dev nD) (t : Fin cfg0.N) (h3 : t.val % 4 = 3) (r : Fin 2048) (j : Fin 2) (d : Fin 64) :
    (outsAt0 m c t.val t.isLt).1 (ix3 0 r (col j d))
      = kernelRow
          (fun k kk => blkScore (maskBlk (grid0.coords (pt t k)) (wblk m c (pt t k))) (qblk m c (pt t k)) (kblk m c (pt t k)) j r kk)
          (fun k kk => vblk m c (pt t k) (ix3 0 kk (col j d))) := by
  rw [outs_congr m c t.val (pt t 3).val t.isLt (pt t 3).isLt (by have := pt3_val t; omega)]
  exact grp_out m c t h3 r j d

end Cert.KernelIdeal.Group

end
-- ==== Proof.KernelArray.lean ====
/-
  From blocks to the array: the output array after the run holds, at `(b, r, e)`, what the last point of group
  `(b, e / 128)` wrote at row `r`, lane `e % 128`; the blocks that point and its three predecessors staged are
  the rows `512 k … 512 k + 511` of batch `b` of the key, value and mask arrays and the lanes of head pair
  `e / 128` of the query array.  So the array is `kernelOut` of the argument arrays.
-/
import proofs.«422484_j60060822667814_3_alg».proof.Proof.KSpec
import proofs.«422484_j60060822667814_3_alg».proof.Proof.KernelGroup
import proofs.«422484_j60060822667814_3_alg».proof.Proof.Gen.KernelIdeal.Frame
import proofs.«422484_j60060822667814_3_alg».proof.Proof.Gen.KernelIdeal.Value
import Idealize.ShloMosaic.Lib.Pipeline.Value

set_option maxRecDepth 16384

noncomputable section

namespace Cert.KernelIdeal.Arr

open Idealize.ShloMosaic Idealize.ShloMosaic.TcCoe Idealize.SL.Sem
open Idealize.ShloMosaic.Pipeline (Dat)
open Cert.KernelIdeal Cert.KernelIdeal.Gen Cert.KernelIdeal.KSpec Cert.KernelIdeal.Group Cert.Attn Idealize.ShloMosaic.ValueIdx

variable (m : (ℓ : Loc nD τ sig) → Buf (Elt Ideal) ℓ) (ρ : Dev nD → PrngReg)

/-- The query, key, value and mask arrays as the region finds them, as functions of their three coordinates. -/
abbrev Qa (c : Dev nD) : Fin 4 → Fin 2048 → Fin 1024 → EReal := fun b r e => (V m c main_arg0 : S4x2048x1024.Idx → EReal) (ix3 b r e)
abbrev Ka (c : Dev nD) : Fin 4 → Fin 2048 → Fin 1024 → EReal := fun b r e => (V m c main_arg1 : S4x2048x1024.Idx → EReal) (ix3 b r e)
abbrev Va (c : Dev nD) : Fin 4 → Fin 2048 → Fin 1024 → EReal := fun b r e => (V m c main_arg2 : S4x2048x1024.Idx → EReal) (ix3 b r e)
abbrev Wa (c : Dev nD) : Fin 4 → Fin 2048 → Fin 2048 → BitVec 32 := fun b r e => (V m c main_arg3 : S4x2048x2048.Idx → BitVec 32) (ix3 b r e)

/-- The result array, as one function of the argument arrays. -/
def kout (c : Dev nD) : Buf (Elt Ideal) ((c : Thread nD τ).loc main_v0) :=
  fun i => kernelOut (Qa m c) (Ka m c) (Va m c) (Wa m c) (i 0) (i 1) (i 2)

/-- The printed index maps in closed form, decided over the grid: the query and output windows sit at block
    (batch, 0, head pair), the key and value windows at (batch, key block, head pair), the mask window at (batch, 0, 0). -/
theorem idx4 : ∀ t : Fin cfg0.N, win0_4.index t (0 : Fin 3) = t.val / 32 ∧ win0_4.index t (1 : Fin 3) = 0 ∧ win0_4.index t (2 : Fin 3) = (t.val / 4) % 8 :=
  (by decide +kernel : ∀ t : Fin grid0.N, _)
theorem idx0 : ∀ t : Fin cfg0.N, win0_0.index t (0 : Fin 3) = t.val / 32 ∧ win0_0.index t (1 : Fin 3) = 0 ∧ win0_0.index t (2 : Fin 3) = (t.val / 4) % 8 :=
  (by decide +kernel : ∀ t : Fin grid0.N, _)
theorem idx1 : ∀ t : Fin cfg0.N, win0_1.index t (0 : Fin 3) = t.val / 32 ∧ win0_1.index t (1 : Fin 3) = t.val % 4 ∧ win0_1.index t (2 : Fin 3) = (t.val / 4) % 8 :=
  (by decide +kernel : ∀ t : Fin grid0.N, _)
theorem idx2 : ∀ t : Fin cfg0.N, win0_2.index t (0 : Fin 3) = t.val / 32 ∧ win0_2.index t (1 : Fin 3) = t.val % 4 ∧ win0_2.index t (2 : Fin 3) = (t.val / 4) % 8 :=
  (by decide +kernel : ∀ t : Fin grid0.N, _)
theorem idx3 : ∀ t : Fin cfg0.N, win0_3.index t (0 : Fin 3) = t.val / 32 ∧ win0_3.index t (1 : Fin 3) = 0 ∧ win0_3.index t (2 : Fin 3) = 0 :=
  (by decide +kernel : ∀ t : Fin grid0.N, _)
/-- The key-block coordinate of a grid point. -/
theorem coord2 : ∀ t : Fin cfg0.N, (grid0.coords t 2).val = t.val % 4 :=
  (by decide +kernel : ∀ t : Fin grid0.N, _)

/-- The query block staged at point `t`, entry by entry: row `r`, lane `l` of batch `t / 32`, head pair `(t / 4) % 8`. -/
theorem qblk_apply (c : Dev nD) (t : Fin cfg0.N) (r : Fin 2048) (l : Fin 128)
    (b : Fin 4) (e : Fin 1024) (hb : b.val = t.val / 32) (he : e.val = 128 * ((t.val / 4) % 8) + l.val) :
    qblk m c t (ix3 0 r l) = Qa m c b r e := by
  show iblk m c 0 t (ix3 0 r l) = _
  unfold iblk
  rw [View.read_apply]
  show V m c main_arg0 _ = V m c main_arg0 _
  congr 1
  obtain ⟨e0, e1, e2⟩ := idx0 t
  funext a; apply Fin.ext
  match a with
  | ⟨0, _⟩ => show win0_0.index t (0 : Fin 3) * 1 + 1 * 0 = b.val; omega
  | ⟨1, _⟩ => show win0_0.index t (1 : Fin 3) * 2048 + 1 * r.val = r.val; omega
  | ⟨2, _⟩ => show win0_0.index t (2 : Fin 3) * 128 + 1 * l.val = e.val; omega

/-- The key block staged at point `t`: rows `512 (t % 4) …` of batch `t / 32`, lanes of head pair `(t / 4) % 8`. -/
theorem kblk_apply (c : Dev nD) (t : Fin cfg0.N) (kk : Fin 512) (l : Fin 128)
    (b : Fin 4) (x : Fin 2048) (e : Fin 1024) (hb : b.val = t.val / 32) (hx : x.val = 512 * (t.val % 4) + kk.val)
    (he : e.val = 128 * ((t.val / 4) % 8) + l.val) :
    kblk m c t (ix3 0 kk l) = Ka m c b x e := by
  show iblk m c 1 t (ix3 0 kk l) = _
  unfold iblk
  rw [View.read_apply]
  show V m c main_arg1 _ = V m c main_arg1 _
  congr 1
  obtain ⟨e0, e1, e2⟩ := idx1 t
  funext a; apply Fin.ext
  match a with
  | ⟨0, _⟩ => show win0_1.index t (0 : Fin 3) * 1 + 1 * 0 = b.val; omega
  | ⟨1, _⟩ => show win0_1.index t (1 : Fin 3) * 512 + 1 * kk.val = x.val; omega
  | ⟨2, _⟩ => show win0_1.index t (2 : Fin 3) * 128 + 1 * l.val = e.val; omega

/-- The value block staged at point `t`, likewise. -/
theorem vblk_apply (c : Dev nD) (t : Fin cfg0.N) (kk : Fin 512) (l : Fin 128)
    (b : Fin 4) (x : Fin 2048) (e : Fin 1024) (hb : b.val = t.val / 32) (hx : x.val = 512 * (t.val % 4) + kk.val)
    (he : e.val = 128 * ((t.val / 4) % 8) + l.val) :
    vblk m c t (ix3 0 kk l) = Va m c b x e := by
  show iblk m c 2 t (ix3 0 kk l) = _
  unfold iblk
  rw [View.read_apply]
  show V m c main_arg2 _ = V m c main_arg2 _
  congr 1
  obtain ⟨e0, e1, e2⟩ := idx2 t
  funext a; apply Fin.ext
  match a with
  | ⟨0, _⟩ => show win0_2.index t (0 : Fin 3) * 1 + 1 * 0 = b.val; omega
  | ⟨1, _⟩ => show win0_2.index t (1 : Fin 3) * 512 + 1 * kk.val = x.val; omega
  | ⟨2, _⟩ => show win0_2.index t (2 : Fin 3) * 128 + 1 * l.val = e.val; omega

/-- The mask slab a point reads: columns `512 (t % 4) …` of batch `t / 32` of the mask array. -/
theorem mask_apply (c : Dev nD) (t : Fin cfg0.N) (r : Fin 2048) (kk : Fin 512)
    (b : Fin 4) (x : Fin 2048) (hb : b.val = t.val / 32) (hx : x.val = 512 * (t.val % 4) + kk.val) :
    maskBlk (grid0.coords t) (wblk m c t) (ix3 0 r kk) = Wa m c b r x := by
  unfold maskBlk
  show iblk m c 3 t _ = _
  unfold iblk
  rw [View.read_apply]
  show V m c main_arg3 _ = V m c main_arg3 _
  congr 1
  obtain ⟨e0, e1, e2⟩ := idx3 t
  have hc := coord2 t
  have hoff := k0_off1_eq (grid0.coords t)
  have o0 : k0_off1 (grid0.coords t) (0 : Fin 3) = 0 := by rw [hoff]; rfl
  have o1 : k0_off1 (grid0.coords t) (1 : Fin 3) = 0 := by rw [hoff]; rfl
  have o2 : k0_off1 (grid0.coords t) (2 : Fin 3) = 512 * (t.val % 4) := by rw [hoff, ← hc]; rfl
  funext a; apply Fin.ext
  match a with
  | ⟨0, _⟩ => show win0_3.index t (0 : Fin 3) * 1 + 1 * (k0_off1 (grid0.coords t) (0 : Fin 3) + 1 * 0) = b.val; omega
  | ⟨1, _⟩ => show win0_3.index t (1 : Fin 3) * 2048 + 1 * (k0_off1 (grid0.coords t) (1 : Fin 3) + 1 * r.val) = r.val; omega
  | ⟨2, _⟩ => show win0_3.index t (2 : Fin 3) * 2048 + 1 * (k0_off1 (grid0.coords t) (2 : Fin 3) + 1 * kk.val) = x.val; omega

/-- What the last point `t` of a group writes at row `r`, lane `64 j + d`, is `kernelOut` at batch `t / 32`, row `r`,
    column `128 ((t / 4) % 8) + 64 j + d`: the group's four points stage the four key blocks of that batch and head pair. -/
theorem group_eq (c : Dev nD) (t : Fin cfg0.N) (h3 : t.val % 4 = 3) (r : Fin 2048) (j : Fin 2) (d : Fin 64)
    (b : Fin 4) (r' : Fin 2048) (e : Fin 1024) (hb : b.val = t.val / 32) (hr : r'.val = r.val)
    (he : e.val = 128 * ((t.val / 4) % 8) + 64 * j.val + d.val) :
    (outsAt0 m c t.val t.isLt).1 (ix3 0 r (col j d)) = kernelOut (Qa m c) (Ka m c) (Va m c) (Wa m c) b r' e := by
  obtain rfl : r' = r := Fin.ext hr
  rw [out_group m c t h3 r' j d]
  unfold kernelOut
  have ht : t.val < 128 := lt_of_lt_of_eq t.isLt N_0
  have hp : ∀ k : Fin 4, (pt t k).val = t.val - 3 + k.val := fun _ => rfl
  have hj := j.isLt
  have hdlt := d.isLt
  refine congr (congrArg kernelRow ?_) ?_
  · funext k kk
    have hk := k.isLt
    unfold blkScore
    refine congr (congr (congrArg scoreK ?_) ?_) ?_
    · funext d'
      have hd' := d'.isLt
      refine qblk_apply m c (pt t k) r' (col j d') b (hd e d') ?_ ?_
      · rw [hp]; omega
      · show 64 * (e.val / 64) + d'.val = 128 * (((pt t k).val / 4) % 8) + (64 * j.val + d'.val)
        rw [hp]; omega
    · funext d'
      have hd' := d'.isLt
      refine kblk_apply m c (pt t k) kk (col j d') b (key k kk) (hd e d') ?_ ?_ ?_
      · rw [hp]; omega
      · show 512 * k.val + kk.val = 512 * ((pt t k).val % 4) + kk.val
        rw [hp]; omega
      · show 64 * (e.val / 64) + d'.val = 128 * (((pt t k).val / 4) % 8) + (64 * j.val + d'.val)
        rw [hp]; omega
    · refine mask_apply m c (pt t k) r' kk b (key k kk) ?_ ?_
      · rw [hp]; omega
      · show 512 * k.val + kk.val = 512 * ((pt t k).val % 4) + kk.val
        rw [hp]; omega
  · funext k kk
    have hk := k.isLt
    refine vblk_apply m c (pt t k) kk (col j d) b (key k kk) e ?_ ?_ ?_
    · rw [hp]; omega
    · show 512 * k.val + kk.val = 512 * ((pt t k).val % 4) + kk.val
      rw [hp]; omega
    · show e.val = 128 * (((pt t k).val / 4) % 8) + (64 * j.val + d.val)
      rw [hp]; omega

/-- So what a flushing point writes back at a block index is `kout` where the block index sits in the array. -/
theorem flushed_at (c : Dev nD) (t : Fin cfg0.N) (h3 : t.val % 4 = 3) (r : Fin 2048) (j : Fin 2) (d : Fin 64) :
    (outsAt0 m c t.val t.isLt).1 (ix3 0 r (col j d))
      = kout m c (((cfg0.win 4).blk t).view.emb (ix3 0 r (col j d))) := by
  obtain ⟨e0, e1, e2⟩ := idx4 t
  show _ = kernelOut (Qa m c) (Ka m c) (Va m c) (Wa m c) _ _ _
  refine group_eq m c t h3 r j d _ _ _ ?_ ?_ ?_
  · show win0_4.index t (0 : Fin 3) * 1 + 1 * 0 = t.val / 32; omega
  · show win0_4.index t (1 : Fin 3) * 2048 + 1 * r.val = r.val; omega
  · show win0_4.index t (2 : Fin 3) * 128 + 1 * (64 * j.val + d.val) = 128 * ((t.val / 4) % 8) + 64 * j.val + d.val; omega

/-- What every flushing point writes back is its block of `kout`. -/
theorem flushed_eq (c : Dev nD) (t : Fin cfg0.N) (hf : (cfg0.win 4).flush t = true) :
    (dats m 0 c).flushed 4 t = ((cfg0.win 4).blk t).view.read (Elt Ideal) (kout m c) := by
  have h3 : t.val % 4 = 3 := (flush0_4 t).mp hf
  rw [Cert.KernelIdeal.Value.flushed4]
  funext y
  rw [View.read_apply]
  have hy0 : (y 0).val < 1 := (y 0).isLt
  have hy2 : (y 2).val < 128 := (y 2).isLt
  have ey : y = ix3 0 (y 1) (col ⟨(y 2).val / 64, by omega⟩ ⟨(y 2).val % 64, by omega⟩) := by
    funext a
    match a with
    | ⟨0, _⟩ => exact Fin.ext (by show (y 0).val = 0; omega)
    | ⟨1, _⟩ => rfl
    | ⟨2, _⟩ => exact Fin.ext (by show (y 2).val = 64 * ((y 2).val / 64) + (y 2).val % 64; omega)
  rw [ey]
  exact flushed_at m c t h3 _ _ _

/-- The output array after the run, index by index. -/
theorem arr_eq (c : Dev nD) (b : Fin 4) (r : Fin 2048) (e : Fin 1024) :
    (dats m 0 c).arrAt 4 cfg0.N (ix3 b r e) = kernelOut (Qa m c) (Ka m c) (Va m c) (Wa m c) b r e := by
  have hb := b.isLt
  have hr := r.isLt
  have he := e.isLt
  obtain ⟨t, tv⟩ : ∃ t : Fin cfg0.N, t.val = (b.val * 8 + e.val / 128) * 4 + 3 :=
    ⟨⟨(b.val * 8 + e.val / 128) * 4 + 3, by rw [show cfg0.N = 128 from N_0]; omega⟩, rfl⟩
  have hf : (cfg0.win 4).flush t = true := (flush0_4 t).mpr (by omega)
  have hmem : ix3 b r e ∈ ((cfg0.win 4).blk t).view.set := by
    show ix3 b r e ∈ ((View.whole main_v0).slice (win0_4.rect t)).set
    rw [View.set_slice_whole, Rect.mem_set_unit]
    obtain ⟨e0, e1, e2⟩ := idx4 t
    intro a
    match a with
    | ⟨0, _⟩ => show win0_4.index t (0 : Fin 3) * 1 ≤ b.val ∧ b.val < win0_4.index t (0 : Fin 3) * 1 + 1; omega
    | ⟨1, _⟩ => show win0_4.index t (1 : Fin 3) * 2048 ≤ r.val ∧ r.val < win0_4.index t (1 : Fin 3) * 2048 + 2048; omega
    | ⟨2, _⟩ => show win0_4.index t (2 : Fin 3) * 128 ≤ e.val ∧ e.val < win0_4.index t (2 : Fin 3) * 128 + 128; omega
  exact (dats m 0 c).arrAt_apply_of_mem 4 (kout m c) (flushed_eq m c) cfg0.N t (ix3 b r e) t.isLt hf hmem

/-- The output array after the run. -/
theorem final (c : Dev nD) : (dats m 0 c).arrAt 4 cfg0.N = kout m c := by
  funext i
  rw [eq_ix3 i]
  exact arr_eq m c (i 0) (i 1) (i 2)

/-- The kernel's run with its result named. -/
theorem run : θ_run defs (onTc (τ := τ) (main (F := Ideal))) ⟨m, fun _ => 0, ρ⟩ fun r => ∀ c : Dev nD,
      r.2.mem ((c : Thread nD τ).loc main_v0) = kout m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Arr

end
-- ==== Proof.RefRead.lean ====
/-
  The reference, read at an index: its result at `(b, r, e)` is the softmax-weighted sum `refOut` of the argument
  arrays — the head split and merge are re-indexings, the scores an inner product over the head's 64 entries scaled
  by 1/8 and masked, the weights the shifted exponentials over their row sum.
-/
import proofs.«422484_j60060822667814_3_alg».proof.Proof.Spec
import proofs.«422484_j60060822667814_3_alg».proof.Proof.Gen.ReferenceIdeal.Read
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.RefValue

open Idealize.ShloMosaic Cert.ReferenceIdeal Cert.ReferenceIdeal.Gen Cert.ReferenceIdeal.Read Cert.Attn Idealize.ShloMosaic.ValueIdx

/-- The head that embedding column `e` belongs to. -/
def headOf (e : Fin 1024) : Fin 16 := ⟨e.val / 64, by have := e.isLt; omega⟩

/-- Column `64 h + d` of the embedding: entry `d` of head `h`. -/
def colOf (h : Fin 16) (d : Fin 64) : Fin 1024 := ⟨64 * h.val + d.val, by have := h.isLt; have := d.isLt; omega⟩

/-- Spec's `hd e d` is entry `d` of the head of `e`. -/
theorem hd_eq (e : Fin 1024) (d : Fin 64) : hd e d = colOf (headOf e) d := rfl

/-- Column `e` is entry `e % 64` of its own head. -/
theorem col_self (e : Fin 1024) : colOf (headOf e) ⟨e.val % 64, Nat.mod_lt _ (by decide)⟩ = e :=
  Fin.ext (by show 64 * (e.val / 64) + e.val % 64 = e.val; omega)

/-- The head split, read at explicit coordinates: entry `(b, h, r, d)` of the split array is entry `(b, r, 64 h + d)`. -/
theorem split_idx (b : Fin 4) (h : Fin 16) (r : Fin 2048) (d : Fin 64) :
    idx_main_v0 (idx_main_v1 (ix4 b h r d)) = ix3 b r (colOf h d) := by
  funext a
  apply Fin.ext
  have hb := b.isLt; have hh := h.isLt; have hr := r.isLt; have hd' := d.isLt
  match a with
  | ⟨0, _⟩ => show (((b.val * 2048 + r.val) * 16 + h.val) * 64 + d.val) / 2097152 = b.val; omega
  | ⟨1, _⟩ => show (((b.val * 2048 + r.val) * 16 + h.val) * 64 + d.val) / 1024 % 2048 = r.val; omega
  | ⟨2, _⟩ => show (((b.val * 2048 + r.val) * 16 + h.val) * 64 + d.val) % 1024 = 64 * h.val + d.val; omega

section Pieces

variable (x0 x1 x2 : (⟨S4x2048x1024, .f32⟩ : BufTy).Contents (Elt Ideal))
    (x3 : (⟨S4x2048x2048, .i32⟩ : BufTy).Contents (Elt Ideal))

/-- The query, split into heads, at `(b, h, r, d)`. -/
theorem q_read (b : Fin 4) (h : Fin 16) (r : Fin 2048) (d : Fin 64) :
    val_main_v1 (F := Ideal) x0 (ix4 b h r d) = x0 (ix3 b r (colOf h d)) := by
  rw [val_main_v1_apply, val_main_v0_apply]
  exact congrArg x0 (split_idx b h r d)

/-- The keys, split into heads, at `(b, h, r, d)`. -/
theorem k_read (b : Fin 4) (h : Fin 16) (r : Fin 2048) (d : Fin 64) :
    val_main_v3 (F := Ideal) x1 (ix4 b h r d) = x1 (ix3 b r (colOf h d)) := by
  rw [val_main_v3_apply, val_main_v2_apply]
  exact congrArg x1 (split_idx b h r d)

/-- The values, split into heads, at `(b, h, r, d)`. -/
theorem v_read (b : Fin 4) (h : Fin 16) (r : Fin 2048) (d : Fin 64) :
    val_main_v5 (F := Ideal) x2 (ix4 b h r d) = x2 (ix3 b r (colOf h d)) := by
  rw [val_main_v5_apply, val_main_v4_apply]
  exact congrArg x2 (split_idx b h r d)

/-- The masked scores of query row `r` of head `h` in batch `b`, against every key. -/
def rowScore (b : Fin 4) (h : Fin 16) (r : Fin 2048) : Fin 2048 → EReal := fun kx =>
  scoreR (fun d => x0 (ix3 b r (colOf h d))) (fun d => x1 (ix3 b kx (colOf h d))) (x3 (ix3 b r kx))

/-- The masked, scaled score array at `(b, h, r, kx)`: the inner product over the head's 64 entries, times 1/8,
    replaced by the fill value where the mask word is zero. -/
theorem score_read (b : Fin 4) (h : Fin 16) (r kx : Fin 2048) :
    val_main_v12 (F := Ideal) x0 x1 x3 (ix4 b h r kx) = rowScore x0 x1 x3 b h r kx := by
  rw [val_main_v12_apply, val_main_call0_v0_apply, val_main_v11_apply, val_main_v9_apply, val_main_v10_apply,
    val_main_c_apply, val_main_call0_v1_apply, val_main_cst_0_apply, val_main_v8_apply, val_main_v6_apply,
    val_main_v7_apply, val_main_cst_apply]
  have el : ∀ d : Fin 64, lidx_main_v6 (ix4 b h r kx) d = ix4 b h r d := fun d => funext fun a =>
    match a with | ⟨0, _⟩ => rfl | ⟨1, _⟩ => rfl | ⟨2, _⟩ => rfl | ⟨3, _⟩ => rfl
  have er : ∀ d : Fin 64, ridx_main_v6 (ix4 b h r kx) d = ix4 b h kx d := fun d => funext fun a =>
    match a with | ⟨0, _⟩ => rfl | ⟨1, _⟩ => rfl | ⟨2, _⟩ => rfl | ⟨3, _⟩ => rfl
  have ew : idx_main_v9 (idx_main_call0_v0 (ix4 b h r kx)) = ix3 b r kx := funext fun a =>
    match a with | ⟨0, _⟩ => rfl | ⟨1, _⟩ => rfl | ⟨2, _⟩ => rfl
  simp only [el, er, ew, q_read, k_read]
  rfl

/-- The row's shift: the maximum of the row's scores (taken from `-inf`, and once more against `-inf`). -/
def rowShift (b : Fin 4) (h : Fin 16) (r : Fin 2048) : EReal :=
  max ⊥ ((Finset.univ : Finset (Fin 2048)).fold max ⊥ (rowScore x0 x1 x3 b h r))

/-- The row's denominator: the sum of the shifted exponentials (from the initial value `0`). -/
def rowDen (b : Fin 4) (h : Fin 16) (r : Fin 2048) : EReal :=
  0 + ∑ kx : Fin 2048, Ideal.exp (rowScore x0 x1 x3 b h r kx - rowShift x0 x1 x3 b h r)

/-- Key `k` put back on the reduced last axis of `(b, h, r)`. -/
theorem lift_idx (hR : S4x16x2048x2048.Reduces [3] S4x16x2048) (b : Fin 4) (h : Fin 16) (r : Fin 2048)
    (k : Fin 2048) : hR.lift (ix3 b h r) k = ix4 b h r k := by
  funext c
  apply Fin.ext
  match c with
  | ⟨0, _⟩ => rfl
  | ⟨1, _⟩ => rfl
  | ⟨2, _⟩ => rfl
  | ⟨3, _⟩ => rfl

/-- The row maximum: the fold of `max` from `-inf` over the row's 2048 scores. -/
theorem rowmax_read (b : Fin 4) (h : Fin 16) (r : Fin 2048) :
    val_main_v13 (F := Ideal) x0 x1 x3 (ix3 b h r)
      = (Finset.univ : Finset (Fin 2048)).fold max ⊥ (rowScore x0 x1 x3 b h r) := by
  unfold val_main_v13
  have hS : ∀ kx, val_main_v12 (F := Ideal) x0 x1 x3 (ix4 b h r kx) = rowScore x0 x1 x3 b h r kx :=
    score_read x0 x1 x3 b h r
  generalize val_main_v12 (F := Ideal) x0 x1 x3 = y at hS ⊢
  have hR : S4x16x2048x2048.Reduces [3] S4x16x2048 := by decide
  refine (Host.reduce_eq_fold_single (FloatOps.maximumf (F := Ideal) (φ := .f32)) y (val_main_cst_1 (F := Ideal))
    Facts₀.reducesTo_S4x16x2048x2048_S4x16x2048_d3 hR Facts₀.h_S_ (ix3 b h r)).trans ?_
  rw [val_main_cst_1_apply, Ideal.ofBits_def, ofBits_neg_inf]
  have hf : (y ∘ hR.lift (ix3 b h r)) = fun k : Fin 2048 => rowScore x0 x1 x3 b h r k :=
    funext fun k => (congrArg y (lift_idx hR b h r k)).trans (hS k)
  exact congrArg (fun f => Finset.fold max (⊥ : EReal) f (Finset.univ : Finset (Fin 2048))) hf

/-- The shift array at `(b, h, r)`: the maximum of `-inf` and the row maximum. -/
theorem shift_read (b : Fin 4) (h : Fin 16) (r : Fin 2048) :
    val_main_v15 (F := Ideal) x0 x1 x3 (ix3 b h r) = rowShift x0 x1 x3 b h r := by
  rw [val_main_v15_apply, val_main_v14_apply, val_main_cst_2_apply, rowmax_read, Ideal.maximumf_def, Ideal.ofBits_def,
    ofBits_neg_inf]
  rfl

/-- The shifted exponential at `(b, h, r, kx)`. -/
theorem exp_read (b : Fin 4) (h : Fin 16) (r kx : Fin 2048) :
    val_main_v19 (F := Ideal) x0 x1 x3 (ix4 b h r kx)
      = Ideal.exp (rowScore x0 x1 x3 b h r kx - rowShift x0 x1 x3 b h r) := by
  rw [val_main_v19_apply, val_main_v18_apply, val_main_v17_apply, val_main_v16_apply, score_read]
  have ei : idx_main_v16 (idx_main_v17 (ix4 b h r kx)) = ix3 b h r := funext fun a =>
    match a with | ⟨0, _⟩ => rfl | ⟨1, _⟩ => rfl | ⟨2, _⟩ => rfl
  rw [ei, shift_read, Ideal.hostUnary_exp_def, Ideal.subf_def]

/-- The row sum at `(b, h, r)`: the initial value `0` plus the sum of the row's shifted exponentials. -/
theorem den_read (b : Fin 4) (h : Fin 16) (r : Fin 2048) :
    val_main_v20 (F := Ideal) x0 x1 x3 (ix3 b h r) = rowDen x0 x1 x3 b h r := by
  rw [val_main_v20_apply, val_main_cst_3_apply, Ideal.ofBits_def, Ideal.ofBits_zero_f32]
  unfold rowDen
  refine congrArg (0 + ·) (Finset.sum_congr rfl fun k _ => ?_)
  have ei : idx_main_v20 (ix3 b h r) k = ix4 b h r k := funext fun a =>
    match a with | ⟨0, _⟩ => rfl | ⟨1, _⟩ => rfl | ⟨2, _⟩ => rfl | ⟨3, _⟩ => rfl
  rw [ei, exp_read]

/-- The softmax weight at `(b, h, r, kx)`: the shifted exponential over the row sum. -/
theorem weight_read (b : Fin 4) (h : Fin 16) (r kx : Fin 2048) :
    val_main_v23 (F := Ideal) x0 x1 x3 (ix4 b h r kx)
      = Ideal.div (Ideal.exp (rowScore x0 x1 x3 b h r kx - rowShift x0 x1 x3 b h r)) (rowDen x0 x1 x3 b h r) := by
  rw [val_main_v23_apply, val_main_v22_apply, val_main_v21_apply, exp_read]
  have ei : idx_main_v21 (idx_main_v22 (ix4 b h r kx)) = ix3 b h r := funext fun a =>
    match a with | ⟨0, _⟩ => rfl | ⟨1, _⟩ => rfl | ⟨2, _⟩ => rfl
  rw [ei, den_read, Ideal.hostDivf_def]

/-- The head merge, read at explicit coordinates: column `e` is entry `e % 64` of head `e / 64`. -/
theorem merge_idx (b : Fin 4) (r : Fin 2048) (e : Fin 1024) :
    idx_main_v25 (idx_main_v26 (ix3 b r e)) = ix4 b (headOf e) r ⟨e.val % 64, Nat.mod_lt _ (by decide)⟩ := by
  funext a
  apply Fin.ext
  have hb := b.isLt; have hr := r.isLt; have he := e.isLt
  match a with
  | ⟨0, _⟩ => show ((b.val * 2048 + r.val) * 1024 + e.val) / 2097152 = b.val; omega
  | ⟨1, _⟩ => show ((b.val * 2048 + r.val) * 1024 + e.val) / 64 % 16 = e.val / 64; omega
  | ⟨2, _⟩ => show ((b.val * 2048 + r.val) * 1024 + e.val) / 1024 % 2048 = r.val; omega
  | ⟨3, _⟩ => show ((b.val * 2048 + r.val) * 1024 + e.val) % 64 = e.val % 64; omega

end Pieces

/-- The reference's result at an index is `refOut` of its arguments. -/
theorem ref_eq (x0 x1 x2 : (⟨S4x2048x1024, .f32⟩ : BufTy).Contents (Elt Ideal))
    (x3 : (⟨S4x2048x2048, .i32⟩ : BufTy).Contents (Elt Ideal)) (b : Fin 4) (r : Fin 2048) (e : Fin 1024) :
    val_main_v26 (F := Ideal) x0 x1 x2 x3 (ix3 b r e)
      = refOut (fun b r e => x0 (ix3 b r e)) (fun b r e => x1 (ix3 b r e)) (fun b r e => x2 (ix3 b r e))
          (fun b r e => x3 (ix3 b r e)) b r e := by
  rw [val_main_v26_apply, val_main_v25_apply, merge_idx, val_main_v24_apply]
  have step : ∀ kx : Fin 2048,
      val_main_v23 (F := Ideal) x0 x1 x3 (lidx_main_v24 (ix4 b (headOf e) r ⟨e.val % 64, Nat.mod_lt _ (by decide)⟩) kx)
        * val_main_v5 (F := Ideal) x2 (ridx_main_v24 (ix4 b (headOf e) r ⟨e.val % 64, Nat.mod_lt _ (by decide)⟩) kx)
      = Ideal.div (Ideal.exp (rowScore x0 x1 x3 b (headOf e) r kx - rowShift x0 x1 x3 b (headOf e) r))
          (rowDen x0 x1 x3 b (headOf e) r) * x2 (ix3 b kx e) := by
    intro kx
    have el : lidx_main_v24 (ix4 b (headOf e) r ⟨e.val % 64, Nat.mod_lt _ (by decide)⟩) kx = ix4 b (headOf e) r kx :=
      funext fun a => match a with | ⟨0, _⟩ => rfl | ⟨1, _⟩ => rfl | ⟨2, _⟩ => rfl | ⟨3, _⟩ => rfl
    have er : ridx_main_v24 (ix4 b (headOf e) r ⟨e.val % 64, Nat.mod_lt _ (by decide)⟩) kx
        = ix4 b (headOf e) kx ⟨e.val % 64, Nat.mod_lt _ (by decide)⟩ :=
      funext fun a => match a with | ⟨0, _⟩ => rfl | ⟨1, _⟩ => rfl | ⟨2, _⟩ => rfl | ⟨3, _⟩ => rfl
    rw [el, er, weight_read, v_read, col_self]
  rw [Finset.sum_congr rfl fun kx _ => step kx]
  rfl

end Cert.ReferenceIdeal.RefValue

end
-- ==== Proof.Bridge.lean ====
/-
  The two results are one number.  With every query, key and value entry a real, a row's scores are reals, every
  running maximum is a real, and the online recurrence telescopes: after each block the running denominator and
  numerator are the sums of `exp (s - m)` and `exp (s - m) · v` over the keys seen so far, `m` the running maximum.
  The final quotient does not depend on the shift, so it is the shifted softmax's weighted sum.
-/
import proofs.«422484_j60060822667814_3_alg».proof.Proof.Spec
import Mathlib.Analysis.SpecialFunctions.Exp
import Mathlib.Data.EReal.Inv
import Mathlib.Algebra.BigOperators.Fin

noncomputable section

namespace Cert.Attn

open Idealize.ShloMosaic

/-- The coercion of a finite sum of reals is the sum of the coercions. -/
theorem coe_sumH {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The fill value is a real. -/
theorem negBig_real : ∃ x : ℝ, negBig = (x : EReal) := by
  unfold negBig Ideal.ofBits Ideal.ieee
  simp only []
  rw [if_neg (by decide), if_neg (by decide)]
  exact ⟨_, rfl⟩

/-- The scale is a real. -/
theorem scale_real : ∃ x : ℝ, scale = (x : EReal) := by
  unfold scale Ideal.ofBits Ideal.ieee
  simp only []
  rw [if_neg (by decide), if_neg (by decide)]
  exact ⟨_, rfl⟩

/-- On real rows the two associations of a masked score are one real. -/
theorem score_real (q k : Fin 64 → ℝ) (w : BitVec 32) :
    ∃ x : ℝ, scoreK (fun d => (q d : EReal)) (fun d => (k d : EReal)) w = (x : EReal) ∧
      scoreR (fun d => (q d : EReal)) (fun d => (k d : EReal)) w = (x : EReal) := by
  obtain ⟨nb, hnb⟩ := negBig_real
  obtain ⟨sc, hsc⟩ := scale_real
  unfold scoreK scoreR
  by_cases hc : IntOp.cmpi .eq w 0#32 = 1#1
  · rw [hc, ValueIdx.select_one, ValueIdx.select_one]
    exact ⟨nb, hnb, hnb⟩
  · rw [ValueIdx.eq_zero_of_ne_one hc, ValueIdx.select_zero, ValueIdx.select_zero]
    refine ⟨(∑ d : Fin 64, q d * k d) * sc, ?_, ?_⟩
    · rw [hsc, Finset.sum_mul, coe_sumH]
      refine Finset.sum_congr rfl (fun d _ => ?_)
      rw [← EReal.coe_mul, ← EReal.coe_mul, mul_right_comm]
    · rw [hsc, EReal.coe_mul, coe_sumH]
      refine congrArg (· * (sc : EReal)) (Finset.sum_congr rfl (fun d _ => ?_))
      rw [EReal.coe_mul]

/-- The coercion of a maximum of reals is the maximum of the coercions. -/
theorem coe_maxH (a b : ℝ) : ((max a b : ℝ) : EReal) = max (a : EReal) (b : EReal) :=
  EReal.coe_strictMono.monotone.map_max

/-- A running maximum from the bottom over coerced reals is the bottom or a real. -/
theorem foldMax_real_or_bot {ι : Type} (t : Finset ι) (f : ι → ℝ) :
    t.fold max (⊥ : EReal) (fun i => (f i : EReal)) = ⊥ ∨
      ∃ M : ℝ, t.fold max (⊥ : EReal) (fun i => (f i : EReal)) = (M : EReal) := by
  classical
  induction t using Finset.induction_on with
  | empty => left; simp
  | insert a t ha ih =>
    right
    rw [Finset.fold_insert ha]
    rcases ih with h | ⟨M, h⟩
    · rw [h]; exact ⟨f a, max_eq_left bot_le⟩
    · rw [h]; exact ⟨max (f a) M, (coe_maxH _ _).symm⟩

/-- Over a nonempty family it is a real. -/
theorem foldMax_real {ι : Type} (t : Finset ι) (ht : t.Nonempty) (f : ι → ℝ) :
    ∃ M : ℝ, t.fold max (⊥ : EReal) (fun i => (f i : EReal)) = (M : EReal) := by
  classical
  obtain ⟨a, ha⟩ := ht
  rw [← Finset.insert_erase ha, Finset.fold_insert (Finset.notMem_erase a t)]
  rcases foldMax_real_or_bot (t.erase a) f with h | ⟨M, h⟩
  · rw [h]; exact ⟨f a, max_eq_left bot_le⟩
  · rw [h]; exact ⟨max (f a) M, (coe_maxH _ _).symm⟩

/-- A block's shifted exponentials, summed. -/
def blkL (s : Fin 512 → ℝ) (M : ℝ) : ℝ := ∑ kk : Fin 512, Real.exp (s kk - M)
/-- A block's shifted exponentials against its values, summed. -/
def blkA (s v : Fin 512 → ℝ) (M : ℝ) : ℝ := ∑ kk : Fin 512, Real.exp (s kk - M) * v kk

/-- Rescaling by `exp (M - M')` moves the shift from `M` to `M'`. -/
theorem blkL_shift (s : Fin 512 → ℝ) (M M' : ℝ) : Real.exp (M - M') * blkL s M = blkL s M' := by
  unfold blkL
  rw [Finset.mul_sum]
  refine Finset.sum_congr rfl (fun kk _ => ?_)
  rw [← Real.exp_add]; congr 1; ring

/-- The same for the numerator. -/
theorem blkA_shift (s v : Fin 512 → ℝ) (M M' : ℝ) : Real.exp (M - M') * blkA s v M = blkA s v M' := by
  unfold blkA
  rw [Finset.mul_sum]
  refine Finset.sum_congr rfl (fun kk _ => ?_)
  rw [← mul_assoc, ← Real.exp_add]; congr 2; ring

/-- A block's sum of exponentials is positive. -/
theorem blkL_pos (s : Fin 512 → ℝ) (M : ℝ) : 0 < blkL s M :=
  Finset.sum_pos (fun _ _ => Real.exp_pos _) ⟨0, Finset.mem_univ _⟩

/-- The block's denominator terms over the extended reals are the coerced real sum. -/
theorem sumL_coe (s : Fin 512 → ℝ) (M : ℝ) :
    ∑ kk : Fin 512, Ideal.exp ((s kk : EReal) - (M : EReal)) = ((blkL s M : ℝ) : EReal) := by
  unfold blkL
  rw [coe_sumH]
  refine Finset.sum_congr rfl (fun kk _ => ?_)
  rw [← EReal.coe_sub, Ideal.exp_coe]

/-- The block's numerator terms over the extended reals are the coerced real sum. -/
theorem sumA_coe (s v : Fin 512 → ℝ) (M : ℝ) :
    ∑ kk : Fin 512, Ideal.exp ((s kk : EReal) - (M : EReal)) * (v kk : EReal) = ((blkA s v M : ℝ) : EReal) := by
  unfold blkA
  rw [coe_sumH]
  refine Finset.sum_congr rfl (fun kk _ => ?_)
  rw [← EReal.coe_sub, Ideal.exp_coe, ← EReal.coe_mul]

/-- The first block, from the empty state. -/
theorem step_bot (s v : Fin 512 → ℝ) :
    ∃ M' : ℝ, mNew ⊥ (fun kk => (s kk : EReal)) = (M' : EReal) ∧
      lNew ⊥ 0 (fun kk => (s kk : EReal)) = ((blkL s M' : ℝ) : EReal) ∧
      aNew ⊥ 0 (fun kk => (s kk : EReal)) (fun kk => (v kk : EReal)) = ((blkA s v M' : ℝ) : EReal) := by
  obtain ⟨Mb, hMb⟩ := foldMax_real (Finset.univ : Finset (Fin 512)) ⟨0, Finset.mem_univ _⟩ s
  have hm : mNew ⊥ (fun kk => (s kk : EReal)) = (Mb : EReal) := by
    unfold mNew; rw [hMb]; exact max_eq_right bot_le
  refine ⟨Mb, hm, ?_, ?_⟩
  · unfold lNew; rw [hm, mul_zero, zero_add]; exact sumL_coe s Mb
  · unfold aNew; rw [hm, mul_zero, zero_add]; exact sumA_coe s v Mb

/-- A later block, from a real state. -/
theorem step_coe (M L A : ℝ) (s v : Fin 512 → ℝ) :
    ∃ M' : ℝ, mNew (M : EReal) (fun kk => (s kk : EReal)) = (M' : EReal) ∧
      lNew (M : EReal) (L : EReal) (fun kk => (s kk : EReal))
        = ((Real.exp (M - M') * L + blkL s M' : ℝ) : EReal) ∧
      aNew (M : EReal) (A : EReal) (fun kk => (s kk : EReal)) (fun kk => (v kk : EReal))
        = ((Real.exp (M - M') * A + blkA s v M' : ℝ) : EReal) := by
  obtain ⟨Mb, hMb⟩ := foldMax_real (Finset.univ : Finset (Fin 512)) ⟨0, Finset.mem_univ _⟩ s
  have hm : mNew (M : EReal) (fun kk => (s kk : EReal)) = ((max M Mb : ℝ) : EReal) := by
    unfold mNew; rw [hMb]; exact (coe_maxH _ _).symm
  refine ⟨max M Mb, hm, ?_, ?_⟩
  · unfold lNew
    rw [hm, sumL_coe, ← EReal.coe_sub, Ideal.exp_coe, ← EReal.coe_mul, ← EReal.coe_add]
  · unfold aNew
    rw [hm, sumA_coe, ← EReal.coe_sub, Ideal.exp_coe, ← EReal.coe_mul, ← EReal.coe_add]

/-- The kernel's row on real scores and values: the quotient of the two shifted sums over the four blocks. -/
theorem kernelRow_coe (s v : Fin 4 → Fin 512 → ℝ) :
    ∃ M : ℝ, kernelRow (fun k kk => (s k kk : EReal)) (fun k kk => (v k kk : EReal))
      = (((∑ k : Fin 4, blkA (s k) (v k) M) / (∑ k : Fin 4, blkL (s k) M) : ℝ) : EReal) := by
  obtain ⟨M1, hm1, hl1, ha1⟩ := step_bot (s 0) (v 0)
  obtain ⟨M2, hm2, hl2, ha2⟩ := step_coe M1 (blkL (s 0) M1) (blkA (s 0) (v 0) M1) (s 1) (v 1)
  rw [blkL_shift] at hl2
  rw [blkA_shift] at ha2
  obtain ⟨M3, hm3, hl3, ha3⟩ := step_coe M2 (blkL (s 0) M2 + blkL (s 1) M2)
    (blkA (s 0) (v 0) M2 + blkA (s 1) (v 1) M2) (s 2) (v 2)
  rw [mul_add, blkL_shift, blkL_shift] at hl3
  rw [mul_add, blkA_shift, blkA_shift] at ha3
  obtain ⟨M4, hm4, hl4, ha4⟩ := step_coe M3 (blkL (s 0) M3 + blkL (s 1) M3 + blkL (s 2) M3)
    (blkA (s 0) (v 0) M3 + blkA (s 1) (v 1) M3 + blkA (s 2) (v 2) M3) (s 3) (v 3)
  rw [mul_add, mul_add, blkL_shift, blkL_shift, blkL_shift] at hl4
  rw [mul_add, mul_add, blkA_shift, blkA_shift, blkA_shift] at ha4
  refine ⟨M4, ?_⟩
  have e1m : m1 (fun k kk => (s k kk : EReal)) = (M1 : EReal) := hm1
  have e1l : l1 (fun k kk => (s k kk : EReal)) = ((blkL (s 0) M1 : ℝ) : EReal) := hl1
  have e1a : a1 (fun k kk => (s k kk : EReal)) (fun k kk => (v k kk : EReal))
      = ((blkA (s 0) (v 0) M1 : ℝ) : EReal) := ha1
  have e2m : m2 (fun k kk => (s k kk : EReal)) = (M2 : EReal) := by
    unfold m2; rw [e1m]; exact hm2
  have e2l : l2 (fun k kk => (s k kk : EReal)) = ((blkL (s 0) M2 + blkL (s 1) M2 : ℝ) : EReal) := by
    unfold l2; rw [e1m, e1l]; exact hl2
  have e2a : a2 (fun k kk => (s k kk : EReal)) (fun k kk => (v k kk : EReal))
      = ((blkA (s 0) (v 0) M2 + blkA (s 1) (v 1) M2 : ℝ) : EReal) := by
    unfold a2; rw [e1m, e1a]; exact ha2
  have e3m : m3 (fun k kk => (s k kk : EReal)) = (M3 : EReal) := by
    unfold m3; rw [e2m]; exact hm3
  have e3l : l3 (fun k kk => (s k kk : EReal))
      = ((blkL (s 0) M3 + blkL (s 1) M3 + blkL (s 2) M3 : ℝ) : EReal) := by
    unfold l3; rw [e2m, e2l]; exact hl3
  have e3a : a3 (fun k kk => (s k kk : EReal)) (fun k kk => (v k kk : EReal))
      = ((blkA (s 0) (v 0) M3 + blkA (s 1) (v 1) M3 + blkA (s 2) (v 2) M3 : ℝ) : EReal) := by
    unfold a3; rw [e2m, e2a]; exact ha3
  have e4l : l4 (fun k kk => (s k kk : EReal))
      = ((blkL (s 0) M4 + blkL (s 1) M4 + blkL (s 2) M4 + blkL (s 3) M4 : ℝ) : EReal) := by
    unfold l4; rw [e3m, e3l]; exact hl4
  have e4a : a4 (fun k kk => (s k kk : EReal)) (fun k kk => (v k kk : EReal))
      = ((blkA (s 0) (v 0) M4 + blkA (s 1) (v 1) M4 + blkA (s 2) (v 2) M4 + blkA (s 3) (v 3) M4 : ℝ) : EReal) := by
    unfold a4; rw [e3m, e3a]; exact ha4
  have hpos : 0 < blkL (s 0) M4 + blkL (s 1) M4 + blkL (s 2) M4 + blkL (s 3) M4 :=
    add_pos (add_pos (add_pos (blkL_pos _ _) (blkL_pos _ _)) (blkL_pos _ _)) (blkL_pos _ _)
  unfold kernelRow
  rw [e4a, e4l, Ideal.div_coe (ne_of_gt hpos), ← EReal.coe_mul, mul_one_div, Fin.sum_univ_four, Fin.sum_univ_four]

/-- The reference's row on real scores and values: the shifted softmax's weighted sum. -/
theorem refRow_coe (s v : Fin 2048 → ℝ) :
    ∃ M : ℝ, refRow (fun kx => (s kx : EReal)) (fun kx => (v kx : EReal))
      = ((∑ kx : Fin 2048, Real.exp (s kx - M) / (∑ kx' : Fin 2048, Real.exp (s kx' - M)) * v kx : ℝ) : EReal) := by
  obtain ⟨Mr, hMr⟩ := foldMax_real (Finset.univ : Finset (Fin 2048)) ⟨0, Finset.mem_univ _⟩ s
  refine ⟨Mr, ?_⟩
  have hL : ∑ kx' : Fin 2048, Ideal.exp ((s kx' : EReal) - (Mr : EReal))
      = ((∑ kx' : Fin 2048, Real.exp (s kx' - Mr) : ℝ) : EReal) := by
    rw [coe_sumH]
    refine Finset.sum_congr rfl (fun kx _ => ?_)
    rw [← EReal.coe_sub, Ideal.exp_coe]
  have hpos : 0 < ∑ kx' : Fin 2048, Real.exp (s kx' - Mr) :=
    Finset.sum_pos (fun _ _ => Real.exp_pos _) ⟨0, Finset.mem_univ _⟩
  unfold refRow
  rw [hMr, max_eq_right bot_le, zero_add, coe_sumH, hL]
  refine Finset.sum_congr rfl (fun kx _ => ?_)
  beta_reduce
  rw [Ideal.div_coe (ne_of_gt hpos), ← EReal.coe_sub, Ideal.exp_coe, ← EReal.coe_mul, ← EReal.coe_mul, mul_one_div]

/-- The softmax's weighted sum does not depend on the shift. -/
theorem softmax_shift (s v : Fin 2048 → ℝ) (M Mr : ℝ) :
    ∑ kx : Fin 2048, Real.exp (s kx - Mr) / (∑ kx' : Fin 2048, Real.exp (s kx' - Mr)) * v kx
      = (∑ kx : Fin 2048, Real.exp (s kx - M) * v kx) / (∑ kx : Fin 2048, Real.exp (s kx - M)) := by
  have hc : ∀ kx, Real.exp (s kx - Mr) = Real.exp (M - Mr) * Real.exp (s kx - M) := by
    intro kx; rw [← Real.exp_add]; congr 1; ring
  have hLr : (∑ kx' : Fin 2048, Real.exp (s kx' - Mr))
      = Real.exp (M - Mr) * ∑ kx' : Fin 2048, Real.exp (s kx' - M) := by
    rw [Finset.mul_sum]; exact Finset.sum_congr rfl (fun kx _ => hc kx)
  rw [hLr, Finset.sum_div]
  refine Finset.sum_congr rfl (fun kx _ => ?_)
  rw [hc kx, mul_div_mul_left _ _ (Real.exp_pos _).ne', div_mul_eq_mul_div]

/-- The 2048 keys are the four blocks of 512. -/
def keyEquiv : Fin 4 × Fin 512 ≃ Fin 2048 where
  toFun p := key p.1 p.2
  invFun x := (⟨x.val / 512, by have := x.isLt; omega⟩, ⟨x.val % 512, by have := x.isLt; omega⟩)
  left_inv p := by
    rcases p with ⟨k, kk⟩
    have h1 := k.isLt
    have h2 := kk.isLt
    refine Prod.ext (Fin.ext ?_) (Fin.ext ?_)
    · simp only [key]; omega
    · simp only [key]; omega
  right_inv x := by
    have h1 := x.isLt
    refine Fin.ext ?_
    simp only [key]; omega

/-- A sum over the keys is the double sum over blocks and keys of a block. -/
theorem sum_key (f : Fin 2048 → ℝ) :
    ∑ kx : Fin 2048, f kx = ∑ k : Fin 4, ∑ kk : Fin 512, f (key k kk) := by
  rw [← keyEquiv.sum_comp f, Fintype.sum_prod_type]
  rfl

/-- For real inputs the kernel's result and the reference's agree at every output index. -/
theorem kernelOut_eq_refOut (Q K V : Fin 4 → Fin 2048 → Fin 1024 → EReal) (W : Fin 4 → Fin 2048 → Fin 2048 → BitVec 32)
    (hQ : ∀ b r e, ∃ x : ℝ, Q b r e = (x : EReal)) (hK : ∀ b r e, ∃ x : ℝ, K b r e = (x : EReal))
    (hV : ∀ b r e, ∃ x : ℝ, V b r e = (x : EReal)) (b : Fin 4) (r : Fin 2048) (e : Fin 1024) :
    kernelOut Q K V W b r e = refOut Q K V W b r e := by
  choose q hq using hQ
  choose k hk using hK
  choose vv hv using hV
  have hsc : ∀ kx : Fin 2048, ∃ x : ℝ,
      scoreK (fun d => Q b r (hd e d)) (fun d => K b kx (hd e d)) (W b r kx) = (x : EReal) ∧
      scoreR (fun d => Q b r (hd e d)) (fun d => K b kx (hd e d)) (W b r kx) = (x : EReal) := by
    intro kx
    have hQ' : (fun d => Q b r (hd e d)) = fun d => ((q b r (hd e d) : ℝ) : EReal) :=
      funext (fun d => hq _ _ _)
    have hK' : (fun d => K b kx (hd e d)) = fun d => ((k b kx (hd e d) : ℝ) : EReal) :=
      funext (fun d => hk _ _ _)
    rw [hQ', hK']
    exact score_real _ _ _
  choose sx hsK hsR using hsc
  have e1 : (fun (k' : Fin 4) (kk : Fin 512) =>
      scoreK (fun d => Q b r (hd e d)) (fun d => K b (key k' kk) (hd e d)) (W b r (key k' kk)))
      = fun k' kk => ((sx (key k' kk) : ℝ) : EReal) := by
    funext k' kk; exact hsK _
  have e2 : (fun (k' : Fin 4) (kk : Fin 512) => V b (key k' kk) e)
      = fun k' kk => ((vv b (key k' kk) e : ℝ) : EReal) := by
    funext k' kk; exact hv _ _ _
  have e3 : (fun kx : Fin 2048 =>
      scoreR (fun d => Q b r (hd e d)) (fun d => K b kx (hd e d)) (W b r kx))
      = fun kx => ((sx kx : ℝ) : EReal) := funext hsR
  have e4 : (fun kx : Fin 2048 => V b kx e) = fun kx => ((vv b kx e : ℝ) : EReal) := by
    funext kx; exact hv _ _ _
  obtain ⟨M, hM⟩ := kernelRow_coe (fun k' kk => sx (key k' kk)) (fun k' kk => vv b (key k' kk) e)
  obtain ⟨Mr, hMr⟩ := refRow_coe sx (fun kx => vv b kx e)
  unfold kernelOut refOut
  rw [e1, e2, e3, e4, hM, hMr, softmax_shift _ _ M Mr, sum_key, sum_key]
  rfl

end Cert.Attn

end
-- ==== Proof.lean ====
/-
  The certificate's claim.  The kernel computes masked scaled-dot-product attention by the online softmax over
  four key blocks per (batch, head pair); the reference computes the shifted softmax over all keys at once.

  * The two kernel programs run, fault-free, leaving their arguments unchanged (the generated frame runs); the
    reference's run is a straight line of host operations.
  * No operation of the kernel was rewritten for the idealized reading, so nothing is to be preserved.
  * At the ideal instance the kernel's result array is `kernelOut` of the argument arrays (the four points of a
    group composed, then the blocks laid over the array), the reference's is `refOut` of them (its operations read
    at an index), and for real inputs — which is what the precondition says — the two are one function: the online
    recurrence telescopes to sums of `exp (s - m)` and `exp (s - m) · v`, and the quotient of those does not depend
    on the shift `m`.
-/
import proofs.«422484_j60060822667814_3_alg».proof.Defs
import proofs.«422484_j60060822667814_3_alg».proof.Proof.Gen.Kernel
import proofs.«422484_j60060822667814_3_alg».proof.Proof.Gen.Kernel.Frame
import proofs.«422484_j60060822667814_3_alg».proof.Proof.Gen.KernelIdeal
import proofs.«422484_j60060822667814_3_alg».proof.Proof.Gen.KernelIdeal.Frame
import proofs.«422484_j60060822667814_3_alg».proof.Proof.Gen.KernelIdeal.Value
import proofs.«422484_j60060822667814_3_alg».proof.Proof.Gen.ReferenceIdeal
import proofs.«422484_j60060822667814_3_alg».proof.Proof.Gen.ReferenceIdeal.Run
import proofs.«422484_j60060822667814_3_alg».proof.Proof.Gen.ReferenceIdeal.Read
import proofs.«422484_j60060822667814_3_alg».proof.Proof.Gen.Pre_finite_inputs
import proofs.«422484_j60060822667814_3_alg».proof.Proof.Spec
import proofs.«422484_j60060822667814_3_alg».proof.Proof.Finite
import proofs.«422484_j60060822667814_3_alg».proof.Proof.KernelArray
import proofs.«422484_j60060822667814_3_alg».proof.Proof.RefRead
import proofs.«422484_j60060822667814_3_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the same result array: `kernelOut` of the arguments on the kernel's side,
    `refOut` of the same arguments on the reference's, equal because the precondition makes every entry a real. -/
theorem algebraic : Cert.algebraic_KernelIdeal_ReferenceIdeal := by
  intro m ρ m' ρ' hpre hagree
  refine ⟨fun c => Cert.KernelIdeal.Arr.kout m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2.1, (hagree c).2.2.1, (hagree c).2.2.2]
  obtain ⟨hq, hk, hv⟩ := Cert.Pre_finite_inputs.Finite.real_of_pre _ _ _ _ (hpre c)
  funext i
  obtain ⟨b, r, e, rfl⟩ : ∃ (b : Fin 4) (r : Fin 2048) (e : Fin 1024), i = ValueIdx.ix3 b r e :=
    ⟨i 0, i 1, i 2, ValueIdx.eq_ix3 i⟩
  refine (Cert.ReferenceIdeal.RefValue.ref_eq _ _ _ _ b r e).trans ?_
  show _ = Cert.Attn.kernelOut (Cert.KernelIdeal.Arr.Qa m c) (Cert.KernelIdeal.Arr.Ka m c) (Cert.KernelIdeal.Arr.Va m c)
    (Cert.KernelIdeal.Arr.Wa m c) b r e
  exact (Cert.Attn.kernelOut_eq_refOut _ _ _ _ (fun b r e => hq _) (fun b r e => hk _) (fun b r e => hv _) b r e).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
